-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S3x8192 : Shape := ⟨2, ![3, 8192]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S3x8192 : S_.BroadcastsInDim S3x8192 (![] : Fin 0 → Fin S3x8192.rank)
  reducesTo_S3x8192_S_d0_1 : S3x8192.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S3x8192 .f32) (main_arg6 : FVec F S128 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S3x8192 .f32 := Host.absf main_arg5
  let main_cst_8 : FVec F S_ .f32 := constant S_ .f32 0x7F800000#32
  let main_v25 : FVec F S3x8192 .f32 := broadcastInDim S3x8192 ![] bcast_S_S3x8192 main_cst_8
  let main_v26 : IVec S3x8192 1 := cmpf .olt main_v24 main_v25
  let main_c_9 : IVec S_ 1 := constantI S_ 1 1#1
  let main_v27 : IVec S_ 1 := (fun x v => Host.reduce IntOp.andi x v reducesTo_S3x8192_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8192x128 .f32) (main_arg1 : FVec F S3x8192 .f32) (main_arg2 : FVec F S8192x8192 .f32) (main_arg3 : FVec F S8192x8192 .f32) (main_arg4 : FVec F S128x128 .f32) (main_arg5 : FVec F S3x8192 .f32) (main_arg6 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S3x8192 .f32 := Host.absf main_arg1
  let main_cst_0 : FVec F S_ .f32 := constant S_ .f32 0x7F800000#32
  let main_v5 : FVec F S3x8192 .f32 := broadcastInDim S3x8192 ![] bcast_S_S3x8192 main_cst_0
  let main_v6 : IVec S3x8192 1 := cmpf .olt main_v4 main_v5
  let main_c_1 : IVec S_ 1 := constantI S_ 1 1#1
  let main_v7 : IVec S_ 1 := (fun x v => Host.reduce IntOp.andi x v reducesTo_S3x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_v13 main_v16
-- ==== Kernel.lean ====
abbrev S8192x128 : Shape := ⟨2, ![8192, 128]⟩
abbrev S3x8192 : Shape := ⟨2, ![3, 8192]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S1024x1024 : Shape := ⟨2, ![1024, 1024]⟩
abbrev S1024x128 : Shape := ⟨2, ![1024, 128]⟩
abbrev S8192x1 : Shape := ⟨2, ![8192, 1]⟩
abbrev S1x128 : Shape := ⟨2, ![1, 128]⟩

abbrev nBuf : Space → Nat
  | .hbm => 20
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S3x8192, .f32⟩
  | .hbm, ⟨2, _⟩ => ⟨S8192x8192, .f32⟩
  | .hbm, ⟨3, _⟩ => ⟨S8192x8192, .f32⟩
  | .hbm, ⟨4, _⟩ => ⟨S128x128, .f32⟩
  | .hbm, ⟨5, _⟩ => ⟨S3x8192, .f32⟩
  | .hbm, ⟨6, _⟩ => ⟨S128, .f32⟩
  | .hbm, ⟨7, _⟩ => ⟨S8192x128, .f32⟩
  | .hbm, ⟨8, _⟩ => ⟨S3x8192, .f32⟩
  | .hbm, ⟨9, _⟩ => ⟨S3x8192, .f32⟩
  | .hbm, ⟨10, _⟩ => ⟨S_, .f32⟩
  | .hbm, ⟨11, _⟩ => ⟨S8192, .f32⟩
  | .hbm, ⟨12, _⟩ => ⟨S8192x128, .f32⟩
  | .hbm, ⟨13, _⟩ => ⟨S8192x1, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S1x128, .f32⟩
  | .hbm, ⟨18, _⟩ => ⟨S8192x128, .f32⟩
  | .hbm, ⟨19, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .f32⟩
  | .local _ .vmem, ⟨8, _⟩ => ⟨S1024x1024, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  reducesTo_S3x8192_S8192_d0 : S3x8192.ReducesTo [0] S8192
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x128_S128x128_S8192x128_1_0_0_1_n_n_wf : DotDims.WF S8192x128 S128x128 S8192x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S3x8192 : Shape := ⟨2, ![3, 8192]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S3x8192, .f32⟩
  | .hbm, ⟨2, _⟩ => ⟨S8192x8192, .f32⟩
  | .hbm, ⟨3, _⟩ => ⟨S8192x8192, .f32⟩
  | .hbm, ⟨4, _⟩ => ⟨S128x128, .f32⟩
  | .hbm, ⟨5, _⟩ => ⟨S3x8192, .f32⟩
  | .hbm, ⟨6, _⟩ => ⟨S128, .f32⟩
  | .hbm, ⟨7, _⟩ => ⟨S8192x128, .f32⟩
  | .hbm, ⟨8, _⟩ => ⟨S8192x128, .f32⟩
  | .hbm, ⟨9, _⟩ => ⟨S3x8192, .f32⟩
  | .hbm, ⟨10, _⟩ => ⟨S3x8192, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S1x128, .f32⟩
  | .hbm, ⟨18, _⟩ => ⟨S8192x128, .f32⟩
  | .hbm, ⟨19, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  reducesTo_S3x8192_S8192_d0 : S3x8192.ReducesTo [0] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.MmK.Body.lean ====
/-
  The matrix-product kernel's body on any whole staging memrefs, in its three control cases. The body keeps a running
  sum in its scratch block: at the first column tile of a row block it resets the scratch to the zero block, at every
  tile it replaces the scratch by scratch + (left tile) x (right tile), and at the last column tile it copies the
  scratch into the output block. Each case is a triple: from the two input blocks at their contents and the scratch
  (and, in the last case, the output block at anything) the body runs to the continuation with the inputs unchanged
  and the scratch (and the output) at the new running sum.
-/
import proofs.«104640_j47047071760998_1_alg».proof.Proof.Gen.Kernel.Launch
import proofs.«104640_j47047071760998_1_alg».proof.Proof.Gen.Kernel.Skeleton
import proofs.«104640_j47047071760998_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first test: the column-tile coordinate is 0. -/
abbrev condFirst (i : grid0.Coords) : Prop :=
  (Scalar.cmpi .ne (Scalar.extui (Scalar.cmpi .eq (BitVec.ofNat 32 (i 1).val) 0#32)) 0#32) = 1#1
/-- The body's second test: the column-tile coordinate is 7, the last. -/
abbrev condLast (i : grid0.Coords) : Prop := k0_cond2 i = 1#1

/-! ## A whole-block access: the rectangle of the block's own sizes at zero offsets -/

section WholeBlock

variable {Val : EltTy → Type} {S : Shape} {e : EltTy}

/-- The zero offsets of a rank-2 access, spelt as a constant function. -/
private theorem hz : (![0, 0] : Fin 2 → Nat) = fun _ => 0 :=
  funext (Fin.forall_fin_two.2 ⟨rfl, rfl⟩)

/-- Such a rectangle places each index of the block at itself. -/
private theorem unit0_emb {off : Fin S.rank → Nat} (h : off = fun _ => 0) (inb : ∀ a, off a + S.size a ≤ S.size a)
    (x : S.Idx) : (Rect.unit off S.size inb).emb x = x := by
  subst h; exact Rect.emb_whole_apply S x

/-- So it holds every index of the block, -/
private theorem unit0_mem {off : Fin S.rank → Nat} (h : off = fun _ => 0) (inb : ∀ a, off a + S.size a ≤ S.size a)
    (y : S.Idx) : y ∈ (Rect.unit off S.size inb).set := by
  have hm : (Rect.unit off S.size inb).emb y ∈ (Rect.unit off S.size inb).set := by
    rw [← Rect.map_emb_univ]; exact Finset.mem_map_of_mem _ (Finset.mem_univ y)
  rwa [unit0_emb h inb y] at hm

/-- a load through it reads the contents, -/
private theorem unit0_ld {off : Fin S.rank → Nat} (h : off = fun _ => 0) (inb : ∀ a, off a + S.size a ≤ S.size a)
    (X : S.Idx → Val e) : View.ld X (Rect.unit off S.size inb) = X :=
  funext fun x => congrArg X (unit0_emb h inb x)

/-- a store through it, made last, leaves its payload whatever was stored before, -/
private theorem unit0_canon_cons [∀ e, Nonempty (Val e)] {off : Fin S.rank → Nat} (h : off = fun _ => 0)
    (inb : ∀ a, off a + S.size a ≤ S.size a) (w : S.Idx → Val e) (L : List (View.Piece Val S e)) :
    View.canon ((⟨Rect.unit off S.size inb, w⟩ : View.Piece Val S e) :: L) = w :=
  funext fun y => by
    have hc := View.canon_cons_emb (Val := Val) (Rect.unit off S.size inb) w L y
    rwa [unit0_emb h inb y] at hc

/-- and a load through it after one store through it reads that store's payload. -/
private theorem unit0_readCov [∀ e, Nonempty (Val e)] {sig : RefSig} {κ : Kind} {sp : Space} (v : View sig κ sp S e)
    {off : Fin S.rank → Nat} (h : off = fun _ => 0) (inb : ∀ a, off a + S.size a ≤ S.size a) (w : S.Idx → Val e) :
    v.readCov [(⟨Rect.unit off S.size inb, w⟩ : View.Piece Val S e)] (Rect.unit off S.size inb).toLoadRect = w := by
  rw [View.readCov_eq_canon_ld v _ _ (fun y => ⟨_, List.mem_singleton_self _, unit0_mem h inb y⟩),
    unit0_canon_cons h inb, unit0_ld h inb]

end WholeBlock

/-- The last store into a 1024 x 128 buffer is of the whole block, so the stores cover it. -/
private theorem cover1 (p : Vec F S1024x128 .f32) (L : List (View.Piece (Elt F) S1024x128 .f32)) (y : S1024x128.Idx) :
    ∃ pc ∈ ((⟨Rect.unit (s := S1024x128) ![0, 0] S1024x128.size inb_S1024x128_S1024x128_0_0, p⟩ :
      View.Piece (Elt F) S1024x128 .f32) :: L), y ∈ pc.1.set :=
  ⟨_, List.mem_cons_self, unit0_mem (S := S1024x128) hz inb_S1024x128_S1024x128_0_0 y⟩

set_option maxHeartbeats 1000000 in
/-- First column tile (not also the last): the scratch is reset, then holds the first product over the zero block. -/
theorem body_first (c : Dev nD) (E : Set ℕ) (i : grid0.Coords)
    (a2 : Memref sig .tc .vmem S1024x1024 .f32) (h2 : a2.IsWhole) (a3 : Memref sig .tc .vmem S1024x128 .f32) (h3 : a3.IsWhole)
    (a4 : Memref sig .tc .vmem S1024x128 .f32) (h4 : a4.IsWhole) (a5 : Memref sig .tc .vmem S1024x128 .f32) (h5 : a5.IsWhole)
    (hf : condFirst i) (hl : ¬condLast i)
    (x0 : Vec F S1024x1024 .f32) (x1 : Vec F S1024x128 .f32) (K : PUnit → sProp 𝕄) :
    iprop(owns (c : Thread nD τ) a2 fullShare x0 ∗ owns (c : Thread nD τ) a3 fullShare x1 ∗ (∃ d, owns (c : Thread nD τ) a5 fullShare d)
        ∗ (iprop(owns (c : Thread nD τ) a2 fullShare x0 ∗ owns (c : Thread nD τ) a3 fullShare x1
            ∗ owns (c : Thread nD τ) a5 fullShare (k0_pay2 x0 x1 k0_pay1)) -∗ K ⟨⟩))
      ⊢ wp frame (wpE (defs₀ (F := F)) Variants.none c none) E (cc0__matmul_kernel i a2 h2 a3 h3 a4 h4 a5 h5) K := by
  simp only [cc0__matmul_kernel_eq_skeleton]; unfold cc0__matmul_kernel_skel
  unfold owns
  iintro ⟨⟨%f0, %hf0, H0⟩, ⟨%f1, %hf1, H1⟩, ⟨%ds, %fs, -, HS⟩, Hk⟩
  obtain rfl := h2.eq_unread hf0; obtain rfl := h3.eq_unread hf1
  sl_exec (disch := first | exact hf | exact hl)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  -- the scratch holds the reset then the update; the update, stored last, is what it reads, and the value the update
  -- added to was loaded back from the reset: the zero block
  sl_unfold_run_names
  rw [View.read_writes_eq_canon _ _ _ (cover1 _ _), unit0_canon_cons (S := S1024x128) hz]
  simp only [View.readAt_eq_ld, h2.read_unread, h3.read_unread, unit0_readCov (S := S1024x128) _ hz,
    unit0_ld (S := S1024x1024) hz, unit0_ld (S := S1024x128) hz]

set_option maxHeartbeats 1000000 in
/-- A middle column tile: the scratch, at the running sum `xs`, gains this tile's product. -/
theorem body_mid (c : Dev nD) (E : Set ℕ) (i : grid0.Coords)
    (a2 : Memref sig .tc .vmem S1024x1024 .f32) (h2 : a2.IsWhole) (a3 : Memref sig .tc .vmem S1024x128 .f32) (h3 : a3.IsWhole)
    (a4 : Memref sig .tc .vmem S1024x128 .f32) (h4 : a4.IsWhole) (a5 : Memref sig .tc .vmem S1024x128 .f32) (h5 : a5.IsWhole)
    (hf : ¬condFirst i) (hl : ¬condLast i)
    (x0 : Vec F S1024x1024 .f32) (x1 : Vec F S1024x128 .f32) (xs : Vec F S1024x128 .f32) (K : PUnit → sProp 𝕄) :
    iprop(owns (c : Thread nD τ) a2 fullShare x0 ∗ owns (c : Thread nD τ) a3 fullShare x1 ∗ owns (c : Thread nD τ) a5 fullShare xs
        ∗ (iprop(owns (c : Thread nD τ) a2 fullShare x0 ∗ owns (c : Thread nD τ) a3 fullShare x1
            ∗ owns (c : Thread nD τ) a5 fullShare (k0_pay2 x0 x1 xs)) -∗ K ⟨⟩))
      ⊢ wp frame (wpE (defs₀ (F := F)) Variants.none c none) E (cc0__matmul_kernel i a2 h2 a3 h3 a4 h4 a5 h5) K := by
  simp only [cc0__matmul_kernel_eq_skeleton]; unfold cc0__matmul_kernel_skel
  unfold owns
  iintro ⟨⟨%f0, %hf0, H0⟩, ⟨%f1, %hf1, H1⟩, ⟨%fs, %hfs, HS⟩, Hk⟩
  obtain rfl := h2.eq_unread hf0; obtain rfl := h3.eq_unread hf1; obtain rfl := h5.eq_unread hfs
  sl_exec (disch := first | exact hf | exact hl)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  -- the scratch holds one whole-block store, of the update over the three blocks as loaded
  rw [View.read_writes_eq_canon _ _ _ (cover1 _ _), unit0_canon_cons (S := S1024x128) hz]
  simp only [View.readAt_eq_ld, h2.read_unread, h3.read_unread, h5.read_unread,
    unit0_ld (S := S1024x1024) hz, unit0_ld (S := S1024x128) hz]

set_option maxHeartbeats 1000000 in
/-- The last column tile: the scratch gains this tile's product and the output block receives the same sum. -/
theorem body_last (c : Dev nD) (E : Set ℕ) (i : grid0.Coords)
    (a2 : Memref sig .tc .vmem S1024x1024 .f32) (h2 : a2.IsWhole) (a3 : Memref sig .tc .vmem S1024x128 .f32) (h3 : a3.IsWhole)
    (a4 : Memref sig .tc .vmem S1024x128 .f32) (h4 : a4.IsWhole) (a5 : Memref sig .tc .vmem S1024x128 .f32) (h5 : a5.IsWhole)
    (hf : ¬condFirst i) (hl : condLast i)
    (x0 : Vec F S1024x1024 .f32) (x1 : Vec F S1024x128 .f32) (xs : Vec F S1024x128 .f32) (K : PUnit → sProp 𝕄) :
    iprop(owns (c : Thread nD τ) a2 fullShare x0 ∗ owns (c : Thread nD τ) a3 fullShare x1 ∗ owns (c : Thread nD τ) a5 fullShare xs
        ∗ (∃ d, owns (c : Thread nD τ) a4 fullShare d)
        ∗ (iprop(owns (c : Thread nD τ) a2 fullShare x0 ∗ owns (c : Thread nD τ) a3 fullShare x1
            ∗ owns (c : Thread nD τ) a5 fullShare (k0_pay2 x0 x1 xs) ∗ owns (c : Thread nD τ) a4 fullShare (k0_pay2 x0 x1 xs)) -∗ K ⟨⟩))
      ⊢ wp frame (wpE (defs₀ (F := F)) Variants.none c none) E (cc0__matmul_kernel i a2 h2 a3 h3 a4 h4 a5 h5) K := by
  simp only [cc0__matmul_kernel_eq_skeleton]; unfold cc0__matmul_kernel_skel
  unfold owns
  iintro ⟨⟨%f0, %hf0, H0⟩, ⟨%f1, %hf1, H1⟩, ⟨%fs, %hfs, HS⟩, ⟨%d4, %f4, -, H4⟩, Hk⟩
  obtain rfl := h2.eq_unread hf0; obtain rfl := h3.eq_unread hf1; obtain rfl := h5.eq_unread hfs
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [HS]
  · iexists _; isplitr
    swap; · iexact HS
    ipureintro
    -- the scratch holds one whole-block store, of the update over the three blocks as loaded
    sl_unfold_run_names
    rw [View.read_writes_eq_canon _ _ _ (cover1 _ _), unit0_canon_cons (S := S1024x128) hz]
    simp only [View.readAt_eq_ld, h2.read_unread, h3.read_unread, h5.read_unread,
      unit0_ld (S := S1024x1024) hz, unit0_ld (S := S1024x128) hz]
  iexists _; isplitr
  swap; · iexact H4
  ipureintro
  -- the output block holds one whole-block store, of the scratch as loaded back after its update
  sl_unfold_run_names
  rw [View.read_writes_eq_canon _ _ _ (cover1 _ _), unit0_canon_cons (S := S1024x128) hz]
  simp only [View.readAt_eq_ld, h2.read_unread, h3.read_unread, h5.read_unread, unit0_readCov (S := S1024x128) _ hz,
    unit0_ld (S := S1024x1024) hz, unit0_ld (S := S1024x128) hz]

/-- The second region's kernel function is the first's, word for word. -/
theorem cc1_eq_cc0 : @cc1__matmul_kernel F _ = @cc0__matmul_kernel F _ := rfl

end Cert.Kernel.Mm

end
-- ==== Proof.MmK.Region0.lean ====
/-
  Region 0 of the program (the product of the left operand `main_arg3` with `main_v0`), at a parameter `V`: the
  contents of the core's buffers when the region is entered. The grid has 64 points, point `t` being row block
  `t / 8` and column tile `t % 8`. The scratch block carries the row block's running sum from point to point:
  it is reset at the points with `t % 8 = 0`, gains one tile product at every point, and is copied to the output
  block at the points with `t % 8 = 7`, the only points at which the output block is written back. This module
  states what the scratch holds after each point (`accAt0`), the region's invariant (`PhiS0`), the proof data
  (`dat0`) and proves the body obligation at every point from the body's three triples.
-/
import proofs.«104640_j47047071760998_1_alg».proof.Proof.Gen.Kernel.Launch
import proofs.«104640_j47047071760998_1_alg».proof.Proof.Gen.Kernel.Skeleton
import proofs.«104640_j47047071760998_1_alg».proof.Proof.Gen.Kernel.Points
import proofs.«104640_j47047071760998_1_alg».proof.Proof.MmK.Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its tile at every point, for any proof data over `V` whose body leaves
    the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right operand's row tile. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two tests over the grid, and where the output block is idle -/

/-- The first test holds at the points whose column tile is 0. -/
theorem hfirst0 : ∀ t : Fin cfg0.N, condFirst (grid0.coords t) ↔ t.val % 8 = 0 :=
  (by decide +kernel : ∀ t : Fin grid0.N, condFirst (grid0.coords t) ↔ t.val % 8 = 0)
/-- The second test holds at the points whose column tile is 7. -/
theorem hlast0 : ∀ t : Fin cfg0.N, condLast (grid0.coords t) ↔ t.val % 8 = 7 :=
  (by decide +kernel : ∀ t : Fin grid0.N, condLast (grid0.coords t) ↔ t.val % 8 = 7)

theorem live0_0 : ∀ t : Fin cfg0.N, cfg0.idle 0 (grid0.coords t) = false := by decide +kernel
theorem live0_1 : ∀ t : Fin cfg0.N, cfg0.idle 1 (grid0.coords t) = false := by decide +kernel
/-- Away from the last column tile the output block is idle and is not written back. -/
theorem idle0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
/-- At the last column tile the output block is stored. -/
theorem live0_2 : ∀ t : Fin cfg0.N, condLast (grid0.coords t) → cfg0.idle 2 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The scratch block. -/
abbrev scM0 : Memref sig .tc .vmem S1024x128 .f32 := Memref.whole cc0_scratch0

/-- The scoped buffers of the core other than this region's staging buffers and its scratch, at some contents. -/
abbrev others0 (c : Dev nD) : sProp 𝕄 :=
  Pipeline.scopedRestBut (Ix := Unit) (Name := ℕ) (U := UR sig nD τ) (Lvl := ℕ) (Val := Elt F) spec0 c [cc0_scratch0]

/-- The region's plain invariant with the scratch block split off. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA others0
  rw [Pipeline.scopedRest_split_of_list spec0 c [cc0_scratch0] (by decide) (by decide)]
  simp only [bigSepL_singleton, scM0, owns_whole]
  rfl

/-! ## What the scratch holds after each point -/

/-- The running sum after point `n`: at a point with `n % 8 = 0` the tile product over the zero block, else the tile
    product over what the point before left. -/
def accAt0 (c : Dev nD) : (n : ℕ) → n < cfg0.N → Vec F S1024x128 .f32
  | 0, h => k0_pay2 (iblk0 V c 0 ⟨0, h⟩) (iblk0 V c 1 ⟨0, h⟩) k0_pay1
  | n + 1, h =>
    if (n + 1) % 8 = 0 then k0_pay2 (iblk0 V c 0 ⟨n + 1, h⟩) (iblk0 V c 1 ⟨n + 1, h⟩) k0_pay1
    else k0_pay2 (iblk0 V c 0 ⟨n + 1, h⟩) (iblk0 V c 1 ⟨n + 1, h⟩) (accAt0 c n (Nat.lt_of_succ_lt h))

theorem accAt0_first (c : Dev nD) (t : Fin cfg0.N) (h0 : t.val % 8 = 0) :
    accAt0 V c t.val t.isLt = k0_pay2 (iblk0 V c 0 t) (iblk0 V c 1 t) k0_pay1 := by
  obtain ⟨n, hn⟩ := t
  cases n with
  | zero => rfl
  | succ n => exact if_pos h0

theorem accAt0_next (c : Dev nD) (t : Fin cfg0.N) (h0 : ¬t.val % 8 = 0) :
    accAt0 V c t.val t.isLt
      = k0_pay2 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h0
  | succ n => exact if_neg h0

/-! ## The invariant -/

/-- Before the first point the plain invariant (the scratch at anything); after point `n` the scratch at the running
    sum, the other scoped buffers and the generator register at anything. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (accAt0 V c n hn) ∗ others0 (F := F) c) ∗ (∃ r, prngReg c r)) := rfl

theorem PhiS0_pos (c : Dev nD) (n : ℕ) (h : n ≤ cfg0.N) (hz : n ≠ 0) :
    PhiS0 V c n h = iprop((owns (c : Thread nD τ) scM0 fullShare (accAt0 V c (n - 1) (by omega)) ∗ others0 (F := F) c) ∗ (∃ r, prngReg c r)) := by
  cases n with
  | zero => exact absurd rfl hz
  | succ n => rfl

/-! ## The proof data -/

/-- The arrays as the region finds them; after the body each input's buffer at its tile and the output's at the
    running sum; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 2000000 in
/-- The body at any point. The inputs' buffers hold their tiles. By the point's column tile: at the first the scratch
    is at anything (before the very first point) or at the previous row block's sum, and the reset makes either
    irrelevant; at a middle tile the scratch holds what the point before left and gains this tile's product; at the
    last tile the output block receives the sum as well. The other scoped buffers, the generator register and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h7 : t.val % 8 = 7
  · -- the last column tile
    have h0 : ¬t.val % 8 = 0 := by omega
    have hz : t.val ≠ 0 := by omega
    have hl : condLast (grid0.coords t) := (hlast0 t).mpr h7
    have hf : ¬condFirst (grid0.coords t) := fun h => h0 ((hfirst0 t).mp h)
    rw [show (dat0 V c).leavesExact 2 t = owns (c : Thread nD τ) (ms0_2 t) fullShare ((dat0 V c).after 2 t) from by
      unfold Dat.leavesExact; rw [live0_2 t hl], after0_2]
    rw [accAt0_next V c t h0, PhiS0_castSucc V c t, PhiS0_pos V c _ _ hz]
    iintro ⟨⟨⟨HS, Hoth⟩, Hg⟩, Ho, ⟨%d0, H0⟩, ⟨%d1, H1⟩, ⟨%d2, H2⟩⟩
    iapply (body_last c Set.univ (grid0.coords t) (ms0_0 t) (hs0_0 t) (ms0_1 t) (hs0_1 t) (ms0_2 t) (hs0_2 t) scM0 (Memref.isWhole_whole _)
      hf hl (iblk0 V c 0 t) (iblk0 V c 1 t) (accAt0 V c (t.val - 1) (Nat.lt_of_le_of_lt (Nat.sub_le _ _) t.isLt)) _)
    isplitl [H0]; · iexact H0
    isplitl [H1]; · iexact H1
    isplitl [HS]; · iexact HS
    isplitl [H2]; · iexists _; iexact H2
    iintro ⟨H0, H1, HS, H2⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · have hl : ¬condLast (grid0.coords t) := fun h => h7 ((hlast0 t).mp h)
    rw [Dat.leavesExact_idle (dat0 V c) 2 t (idle0_2 t hl) (noFlush0_2 t hl)]
    by_cases h0 : t.val % 8 = 0
    · -- the first column tile: the scratch is reset
      have hf : condFirst (grid0.coords t) := (hfirst0 t).mpr h0
      rw [accAt0_first V c t h0]
      by_cases hz : t.val = 0
      · rw [PhiS0_castSucc V c t, PhiS0_zero V c _ _ hz, PhiA0_eq]
        iintro ⟨⟨⟨HS, Hoth⟩, Hg⟩, Ho, ⟨%d0, H0⟩, ⟨%d1, H1⟩, ⟨%d2, H2⟩⟩
        iapply (body_first c Set.univ (grid0.coords t) (ms0_0 t) (hs0_0 t) (ms0_1 t) (hs0_1 t) (ms0_2 t) (hs0_2 t) scM0 (Memref.isWhole_whole _)
          hf hl (iblk0 V c 0 t) (iblk0 V c 1 t) _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, Hoth⟩, Hg⟩, Ho, ⟨%d0, H0⟩, ⟨%d1, H1⟩, ⟨%d2, H2⟩⟩
        iapply (body_first c Set.univ (grid0.coords t) (ms0_0 t) (hs0_0 t) (ms0_1 t) (hs0_1 t) (ms0_2 t) (hs0_2 t) scM0 (Memref.isWhole_whole _)
          hf hl (iblk0 V c 0 t) (iblk0 V c 1 t) _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
    · -- a middle column tile
      have hf : ¬condFirst (grid0.coords t) := fun h => h0 ((hfirst0 t).mp h)
      have hz : t.val ≠ 0 := fun e => h0 (by rw [e])
      rw [accAt0_next V c t h0, PhiS0_castSucc V c t, PhiS0_pos V c _ _ hz]
      iintro ⟨⟨⟨HS, Hoth⟩, Hg⟩, Ho, ⟨%d0, H0⟩, ⟨%d1, H1⟩, ⟨%d2, H2⟩⟩
      iapply (body_mid c Set.univ (grid0.coords t) (ms0_0 t) (hs0_0 t) (ms0_1 t) (hs0_1 t) (ms0_2 t) (hs0_2 t) scM0 (Memref.isWhole_whole _)
        hf hl (iblk0 V c 0 t) (iblk0 V c 1 t) (accAt0 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- The plain invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: the running sum is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, Hoth⟩, Hg⟩
  isplitl [HS Hoth]
  · isplitl [HS]; · iexists _; iexact HS
    iexact Hoth
  iexact Hg

end Cert.Kernel.Mm

end
-- ==== Proof.MmK.Region1.lean ====
/-
  Region 1 of the program (the product of the left operand `main_arg2` with `main_v7`), at a parameter `V`: the
  contents of the core's buffers when the region is entered. The grid has 64 points, point `t` being row block
  `t / 8` and column tile `t % 8`. The scratch block carries the row block's running sum from point to point:
  it is reset at the points with `t % 8 = 0`, gains one tile product at every point, and is copied to the output
  block at the points with `t % 8 = 7`, the only points at which the output block is written back. This module
  states what the scratch holds after each point (`accAt1`), the region's invariant (`PhiS1`), the proof data
  (`dat1`) and proves the body obligation at every point from the body's three triples.
-/
import proofs.«104640_j47047071760998_1_alg».proof.Proof.Gen.Kernel.Launch
import proofs.«104640_j47047071760998_1_alg».proof.Proof.Gen.Kernel.Skeleton
import proofs.«104640_j47047071760998_1_alg».proof.Proof.Gen.Kernel.Points
import proofs.«104640_j47047071760998_1_alg».proof.Proof.MmK.Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its tile at every point, for any proof data over `V` whose body leaves
    the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand's row tile. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two tests over the grid, and where the output block is idle -/

/-- The first test holds at the points whose column tile is 0. -/
theorem hfirst1 : ∀ t : Fin cfg1.N, condFirst (grid1.coords t) ↔ t.val % 8 = 0 :=
  (by decide +kernel : ∀ t : Fin grid1.N, condFirst (grid1.coords t) ↔ t.val % 8 = 0)
/-- The second test holds at the points whose column tile is 7. -/
theorem hlast1 : ∀ t : Fin cfg1.N, condLast (grid1.coords t) ↔ t.val % 8 = 7 :=
  (by decide +kernel : ∀ t : Fin grid1.N, condLast (grid1.coords t) ↔ t.val % 8 = 7)

theorem live1_0 : ∀ t : Fin cfg1.N, cfg1.idle 0 (grid1.coords t) = false := by decide +kernel
theorem live1_1 : ∀ t : Fin cfg1.N, cfg1.idle 1 (grid1.coords t) = false := by decide +kernel
/-- Away from the last column tile the output block is idle and is not written back. -/
theorem idle1_2 : ∀ t : Fin cfg1.N, ¬condLast (grid1.coords t) → cfg1.idle 2 (grid1.coords t) = true := by decide +kernel
theorem noFlush1_2 : ∀ t : Fin cfg1.N, ¬condLast (grid1.coords t) → (cfg1.win 2).flush t = false := by decide +kernel
/-- At the last column tile the output block is stored. -/
theorem live1_2 : ∀ t : Fin cfg1.N, condLast (grid1.coords t) → cfg1.idle 2 (grid1.coords t) = false := by decide +kernel

/-! ## The memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The scratch block. -/
abbrev scM1 : Memref sig .tc .vmem S1024x128 .f32 := Memref.whole cc1_scratch0

/-- The scoped buffers of the core other than this region's staging buffers and its scratch, at some contents. -/
abbrev others1 (c : Dev nD) : sProp 𝕄 :=
  Pipeline.scopedRestBut (Ix := Unit) (Name := ℕ) (U := UR sig nD τ) (Lvl := ℕ) (Val := Elt F) spec1 c [cc1_scratch0]

/-- The region's plain invariant with the scratch block split off. -/
theorem PhiA1_eq (c : Dev nD) :
    (Pipeline.ΦA spec1 c : sProp 𝕄)
      = iprop(((∃ d, owns (c : Thread nD τ) scM1 fullShare d) ∗ others1 (F := F) c) ∗ (∃ r, prngReg c r)) := by
  unfold Pipeline.ΦA others1
  rw [Pipeline.scopedRest_split_of_list spec1 c [cc1_scratch0] (by decide) (by decide)]
  simp only [bigSepL_singleton, scM1, owns_whole]
  rfl

/-! ## What the scratch holds after each point -/

/-- The running sum after point `n`: at a point with `n % 8 = 0` the tile product over the zero block, else the tile
    product over what the point before left. -/
def accAt1 (c : Dev nD) : (n : ℕ) → n < cfg1.N → Vec F S1024x128 .f32
  | 0, h => k0_pay2 (iblk1 V c 0 ⟨0, h⟩) (iblk1 V c 1 ⟨0, h⟩) k0_pay1
  | n + 1, h =>
    if (n + 1) % 8 = 0 then k0_pay2 (iblk1 V c 0 ⟨n + 1, h⟩) (iblk1 V c 1 ⟨n + 1, h⟩) k0_pay1
    else k0_pay2 (iblk1 V c 0 ⟨n + 1, h⟩) (iblk1 V c 1 ⟨n + 1, h⟩) (accAt1 c n (Nat.lt_of_succ_lt h))

theorem accAt1_first (c : Dev nD) (t : Fin cfg1.N) (h0 : t.val % 8 = 0) :
    accAt1 V c t.val t.isLt = k0_pay2 (iblk1 V c 0 t) (iblk1 V c 1 t) k0_pay1 := by
  obtain ⟨n, hn⟩ := t
  cases n with
  | zero => rfl
  | succ n => exact if_pos h0

theorem accAt1_next (c : Dev nD) (t : Fin cfg1.N) (h0 : ¬t.val % 8 = 0) :
    accAt1 V c t.val t.isLt
      = k0_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant -/

/-- Before the first point the plain invariant (the scratch at anything); after point `n` the scratch at the running
    sum, the other scoped buffers and the generator register at anything. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (accAt1 V c n hn) ∗ others1 (F := F) c) ∗ (∃ r, prngReg c r)) := rfl

theorem PhiS1_pos (c : Dev nD) (n : ℕ) (h : n ≤ cfg1.N) (hz : n ≠ 0) :
    PhiS1 V c n h = iprop((owns (c : Thread nD τ) scM1 fullShare (accAt1 V c (n - 1) (by omega)) ∗ others1 (F := F) c) ∗ (∃ r, prngReg c r)) := by
  cases n with
  | zero => exact absurd rfl hz
  | succ n => rfl

/-! ## The proof data -/

/-- The arrays as the region finds them; after the body each input's buffer at its tile and the output's at the
    running sum; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 2000000 in
/-- The body at any point. The inputs' buffers hold their tiles. By the point's column tile: at the first the scratch
    is at anything (before the very first point) or at the previous row block's sum, and the reset makes either
    irrelevant; at a middle tile the scratch holds what the point before left and gains this tile's product; at the
    last tile the output block receives the sum as well. The other scoped buffers, the generator register and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [cc1_eq_cc0]
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h7 : t.val % 8 = 7
  · -- the last column tile
    have h0 : ¬t.val % 8 = 0 := by omega
    have hz : t.val ≠ 0 := by omega
    have hl : condLast (grid1.coords t) := (hlast1 t).mpr h7
    have hf : ¬condFirst (grid1.coords t) := fun h => h0 ((hfirst1 t).mp h)
    rw [show (dat1 V c).leavesExact 2 t = owns (c : Thread nD τ) (ms1_2 t) fullShare ((dat1 V c).after 2 t) from by
      unfold Dat.leavesExact; rw [live1_2 t hl], after1_2]
    rw [accAt1_next V c t h0, PhiS1_castSucc V c t, PhiS1_pos V c _ _ hz]
    iintro ⟨⟨⟨HS, Hoth⟩, Hg⟩, Ho, ⟨%d0, H0⟩, ⟨%d1, H1⟩, ⟨%d2, H2⟩⟩
    iapply (body_last c Set.univ (grid1.coords t) (ms1_0 t) (hs1_0 t) (ms1_1 t) (hs1_1 t) (ms1_2 t) (hs1_2 t) scM1 (Memref.isWhole_whole _)
      hf hl (iblk1 V c 0 t) (iblk1 V c 1 t) (accAt1 V c (t.val - 1) (Nat.lt_of_le_of_lt (Nat.sub_le _ _) t.isLt)) _)
    isplitl [H0]; · iexact H0
    isplitl [H1]; · iexact H1
    isplitl [HS]; · iexact HS
    isplitl [H2]; · iexists _; iexact H2
    iintro ⟨H0, H1, HS, H2⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · have hl : ¬condLast (grid1.coords t) := fun h => h7 ((hlast1 t).mp h)
    rw [Dat.leavesExact_idle (dat1 V c) 2 t (idle1_2 t hl) (noFlush1_2 t hl)]
    by_cases h0 : t.val % 8 = 0
    · -- the first column tile: the scratch is reset
      have hf : condFirst (grid1.coords t) := (hfirst1 t).mpr h0
      rw [accAt1_first V c t h0]
      by_cases hz : t.val = 0
      · rw [PhiS1_castSucc V c t, PhiS1_zero V c _ _ hz, PhiA1_eq]
        iintro ⟨⟨⟨HS, Hoth⟩, Hg⟩, Ho, ⟨%d0, H0⟩, ⟨%d1, H1⟩, ⟨%d2, H2⟩⟩
        iapply (body_first c Set.univ (grid1.coords t) (ms1_0 t) (hs1_0 t) (ms1_1 t) (hs1_1 t) (ms1_2 t) (hs1_2 t) scM1 (Memref.isWhole_whole _)
          hf hl (iblk1 V c 0 t) (iblk1 V c 1 t) _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS, Hoth⟩, Hg⟩, Ho, ⟨%d0, H0⟩, ⟨%d1, H1⟩, ⟨%d2, H2⟩⟩
        iapply (body_first c Set.univ (grid1.coords t) (ms1_0 t) (hs1_0 t) (ms1_1 t) (hs1_1 t) (ms1_2 t) (hs1_2 t) scM1 (Memref.isWhole_whole _)
          hf hl (iblk1 V c 0 t) (iblk1 V c 1 t) _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
    · -- a middle column tile
      have hf : ¬condFirst (grid1.coords t) := fun h => h0 ((hfirst1 t).mp h)
      have hz : t.val ≠ 0 := fun e => h0 (by rw [e])
      rw [accAt1_next V c t h0, PhiS1_castSucc V c t, PhiS1_pos V c _ _ hz]
      iintro ⟨⟨⟨HS, Hoth⟩, Hg⟩, Ho, ⟨%d0, H0⟩, ⟨%d1, H1⟩, ⟨%d2, H2⟩⟩
      iapply (body_mid c Set.univ (grid1.coords t) (ms1_0 t) (hs1_0 t) (ms1_1 t) (hs1_1 t) (ms1_2 t) (hs1_2 t) scM1 (Memref.isWhole_whole _)
        hf hl (iblk1 V c 0 t) (iblk1 V c 1 t) (accAt1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- The plain invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the running sum is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hoth⟩, Hg⟩
  isplitl [HS Hoth]
  · isplitl [HS]; · iexists _; iexact HS
    iexact Hoth
  iexact Hg

end Cert.Kernel.Mm

end
-- ==== Proof.MmK.Regs.lean ====
/-
  The whole program's run. Between @main's five items (a host stretch, region 0, a host stretch, region 1, a host
  stretch) the core's unscoped buffers are held at the contents the items before left: the launch contents, then each
  host stretch's operations applied, then a region's output array at what its write-backs leave (`out0`, `out1`:
  the pipeline library's fold of the flushed blocks) and every other buffer unchanged. Each region is entered by
  splitting its three arrays out of the unscoped buffers and left by putting them back; the generator register and the
  scoped buffers go into the region's invariant and come back; nothing is owed. The run ends with the result
  buffer `main_v11` at the last valuation and every argument array as launched.
-/
import proofs.«104640_j47047071760998_1_alg».proof.Proof.Gen.Kernel.Launch
import proofs.«104640_j47047071760998_1_alg».proof.Proof.Gen.Kernel.Skeleton
import proofs.«104640_j47047071760998_1_alg».proof.Proof.Gen.Kernel.Points
import proofs.«104640_j47047071760998_1_alg».proof.Proof.MmK.Region0
import proofs.«104640_j47047071760998_1_alg».proof.Proof.MmK.Region1
import proofs.«104640_j47047071760998_1_alg».proof.Proof.Gen.Kernel.Regions
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between the items -/

/-- At region 0's entry: the launch contents after the first host stretch, read at the TensorCore's references. -/
abbrev in0 (c : Dev nD) (b : Ref sig .tc) : Buf (Elt F) ((c : Thread nD τ).loc b) := Gen.V1 m c b

/-- Region 0's output array after the region. -/
def out0 (c : Dev nD) : Buf (Elt F) ((c : Thread nD τ).loc main_v4) := (dat0 (in0 m) c).arrAt 2 cfg0.N

/-- After region 0: its output array at `out0`, every other buffer as entered. -/
abbrev U2 (c : Dev nD) : Valuation τ sig (Elt F) := Function.update (Gen.V1 m c) main_v4 (out0 m c)
/-- After the second host stretch: region 1's entry. -/
abbrev U3 (c : Dev nD) : Valuation τ sig (Elt F) := StableHlo.after hostOps1 (U2 m c)
abbrev in1 (c : Dev nD) (b : Ref sig .tc) : Buf (Elt F) ((c : Thread nD τ).loc b) := U3 m c b

/-- Region 1's output array after the region. -/
def out1 (c : Dev nD) : Buf (Elt F) ((c : Thread nD τ).loc main_v8) := (dat1 (in1 m) c).arrAt 2 cfg1.N

/-- After region 1. -/
abbrev U4 (c : Dev nD) : Valuation τ sig (Elt F) := Function.update (U3 m c) main_v8 (out1 m c)
/-- After the last host stretch: the end. -/
abbrev U5 (c : Dev nD) : Valuation τ sig (Elt F) := StableHlo.after hostOps2 (U4 m c)

/-- What the regions leave, as the generated host side reads it. -/
abbrev outs : Gen.Outs (F := F) := fun J r c => match J with
  | 2 => U2 m c r
  | _ => U4 m c r

theorem V2_eq (c : Dev nD) : Gen.V2 m (outs m) c = U2 m c := by
  show Function.update (Gen.V1 m c) main_v4 (Function.update (Gen.V1 m c) main_v4 (out0 m c) main_v4) = _
  rw [Function.update_self]
theorem V3_eq (c : Dev nD) : Gen.V3 m (outs m) c = U3 m c := by
  show StableHlo.after hostOps1 (Gen.V2 m (outs m) c) = _
  rw [V2_eq]
theorem V4_eq (c : Dev nD) : Gen.V4 m (outs m) c = U4 m c := by
  show Function.update (Gen.V3 m (outs m) c) main_v8 (Function.update (U3 m c) main_v8 (out1 m c) main_v8) = _
  rw [Function.update_self, V3_eq]
theorem V5_eq (c : Dev nD) : Gen.V5 m (outs m) c = U5 m c := by
  show StableHlo.after hostOps2 (Gen.V4 m (outs m) c) = _
  rw [V4_eq]

theorem U2_out (c : Dev nD) : U2 m c main_v4 = out0 m c := Function.update_self _ _ _
theorem U2_of_ne (c : Dev nD) (b : Ref sig .tc) (h : b ≠ main_v4) : U2 m c b = Gen.V1 m c b :=
  Function.update_of_ne (StableHlo.devRef_ne_of_ne h) _ _
theorem U4_out (c : Dev nD) : U4 m c main_v8 = out1 m c := Function.update_self _ _ _
theorem U4_of_ne (c : Dev nD) (b : Ref sig .tc) (h : b ≠ main_v8) : U4 m c b = U3 m c b :=
  Function.update_of_ne (StableHlo.devRef_ne_of_ne h) _ _

/-! ## The proof data family and what rides along -/

/-- Both pipelines' proof data, each at its region's entry contents. -/
def pdats : (p : Fin 2) → (c : Dev nD) → Dat τ (Elt F) Unit ℕ (UR sig nD τ) ℕ (cfgs p) c
  | ⟨0, _⟩ => fun c => dat0 (in0 m) c
  | ⟨1, _⟩ => fun c => dat1 (in1 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state and the core's dues, none. -/
abbrev R (c : Dev nD) : sProp 𝕄 := iprop((∃ r, prngReg c r) ∗ ∃ W, owes (c : Thread nD τ) (0 : CellTallies nD τ sig Unit) W)

/-! ## The regions -/

set_option backward.isDefEq.respectTransparency.types false in
/-- Region 0: entered from the unscoped buffers at the first host stretch's contents, left at `U2`. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (in0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (in0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (in0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (in0 m c) (fun b => U2 m c b) ((pdats m 0 c).arrAt · cfg0.N)
      (fun w => by
        fin_cases w
        · show (dat0 (in0 m) c).arrAt 0 cfg0.N = U2 m c main_arg3
          exact ((dat0 (in0 m) c).arrAt_in 0 rfl _).trans ((A_eq0 (in0 m) c 0).trans (U2_of_ne m c main_arg3 (by decide)).symm)
        · show (dat0 (in0 m) c).arrAt 1 cfg0.N = U2 m c main_v0
          exact ((dat0 (in0 m) c).arrAt_in 1 rfl _).trans ((A_eq0 (in0 m) c 1).trans (U2_of_ne m c main_v0 (by decide)).symm)
        · show (dat0 (in0 m) c).arrAt 2 cfg0.N = U2 m c main_v4
          exact (U2_out m c).symm)
      (fun b hb => U2_of_ne m c b fun h => hb (by subst h; exact Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the unscoped buffers at the second host stretch's contents, left at `U4`. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (in1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (in1 m c) (fun b => U4 m c b) ((pdats m 1 c).arrAt · cfg1.N)
      (fun w => by
        fin_cases w
        · show (dat1 (in1 m) c).arrAt 0 cfg1.N = U4 m c main_arg2
          exact ((dat1 (in1 m) c).arrAt_in 0 rfl _).trans ((A_eq1 (in1 m) c 0).trans (U4_of_ne m c main_arg2 (by decide)).symm)
        · show (dat1 (in1 m) c).arrAt 1 cfg1.N = U4 m c main_v7
          exact ((dat1 (in1 m) c).arrAt_in 1 rfl _).trans ((A_eq1 (in1 m) c 1).trans (U4_of_ne m c main_v7 (by decide)).symm)
        · show (dat1 (in1 m) c).arrAt 2 cfg1.N = U4 m c main_v8
          exact (U4_out m c).symm)
      (fun b hb => U4_of_ne m c b fun h => hb (by subst h; exact Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

theorem hpre0 (c : Dev nD) : iprop(StableHlo.held (c : Thread nD τ) (Pipeline.ucRefs τ sig) (Gen.V1 m c) ∗ R (F := F) c) ⊢ (reg0 m).pre c := .rfl
theorem hpost0 (c : Dev nD) : (reg0 m).post c ⊢ iprop(StableHlo.held (c : Thread nD τ) (Pipeline.ucRefs τ sig) (Gen.V2 m (outs m) c) ∗ R (F := F) c) := by
  rw [V2_eq]; exact .rfl
theorem hpre1 (c : Dev nD) : iprop(StableHlo.held (c : Thread nD τ) (Pipeline.ucRefs τ sig) (Gen.V3 m (outs m) c) ∗ R (F := F) c) ⊢ (reg1 m).pre c := by
  rw [V3_eq]; exact .rfl
theorem hpost1 (c : Dev nD) : (reg1 m).post c ⊢ iprop(StableHlo.held (c : Thread nD τ) (Pipeline.ucRefs τ sig) (Gen.V4 m (outs m) c) ∗ R (F := F) c) := by
  rw [V4_eq]; exact .rfl

set_option backward.isDefEq.respectTransparency.types false in
/-- From any memory with zero counters every weakly fair execution of @main terminates, nothing faulting; the result
    buffer ends at the last valuation and every argument array as launched. The launch deals the generator register and
    the (empty) dues to every core; the items chain through the valuations above; the end reads the unscoped buffers. -/
theorem run_named : θ_run defs (onTc (τ := τ) (main (F := F))) ⟨m, fun _ => 0, ρ⟩ (fun r => ∀ c : Dev nD,
      r.2.mem ((c.tc : Thread nD τ).loc main_v11) = U5 m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
    refine Pipeline.initEach L lv fun c => ?_
    iintro ⟨⟨-, HO, -, Hp, -⟩, -⟩
    imodintro
    isplitl [Hp]; · iexists _; iexact Hp
    iexists ∅; iexact HO
  refine Pipeline.θ_run_regions_kit_dev (pcfgs (F := F)) Gen.adm (pdats m) () cellOf_inj emb₁ defs₀ 𝒱₀ L lv m ρ main
    (Gen.segs m (outs m) 𝒱₀ L lv (fun _ c => R (F := F) c) () (pdats m) (reg0 m) (reg1 m))
    (fun c Q => by
      rewrite [main_chain c, Seg.run_eq_chain,
        show (Gen.segs m (outs m) 𝒱₀ L lv (fun _ c => R (F := F) c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) (0 : Dev nD → CellTallies nD τ sig Unit) (fun _ _ => rfl)
    (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R (F := F) c))
    (Tₙ := fun c => StableHlo.held (c : Thread nD τ) (Pipeline.ucRefs τ sig) (Gen.V5 m (outs m) c))
    (hch := fun c => ⟨.rfl, hpre0 m c, hpost0 m c, hpre1 m c, hpost1 m c, sep_mono .rfl (by iintro ⟨-, H⟩; iexact H)⟩)
    (hinit := ?_) (QY := fun c s => s.mem ((c.tc : Thread nD τ).loc main_v11) = U5 m c main_v11 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are held at the launch contents; the rest makes `R` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (fun c : Dev nD => R (F := F) c)]
    isplitl [Hh]; · iexact Hh
    iexact HE
  · -- the end: the result and each argument read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨(h (Proc.devRef .tc main_v11) (Finset.mem_filter.mpr ⟨StableHlo.devRef_mem_tcRefs main_v11, by decide⟩)).trans (by rw [V5_eq]),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c),
        (h (Proc.devRef .tc main_arg4) (Finset.mem_filter.mpr ⟨StableHlo.devRef_mem_tcRefs main_arg4, by decide⟩)).trans (Gen.V5_main_arg4 m (outs m) c),
        (h (Proc.devRef .tc main_arg5) (Finset.mem_filter.mpr ⟨StableHlo.devRef_mem_tcRefs main_arg5, by decide⟩)).trans (Gen.V5_main_arg5 m (outs m) c),
        (h (Proc.devRef .tc main_arg6) (Finset.mem_filter.mpr ⟨StableHlo.devRef_mem_tcRefs main_arg6, by decide⟩)).trans (Gen.V5_main_arg6 m (outs m) c)⟩
    · iexact HSI

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_named m ρ)

end Cert.Kernel.Mm

end
-- ==== Proof.Mm.Body.lean ====
/-
  The matrix-product kernel's body on any whole staging memrefs, in its three control cases. The body keeps a running
  sum in its scratch block: at the first column tile of a row block it resets the scratch to the zero block, at every
  tile it replaces the scratch by scratch + (left tile) x (right tile), and at the last column tile it copies the
  scratch into the output block. Each case is a triple: from the two input blocks at their contents and the scratch
  (and, in the last case, the output block at anything) the body runs to the continuation with the inputs unchanged
  and the scratch (and the output) at the new running sum.
-/
import proofs.«104640_j47047071760998_1_alg».proof.Proof.Gen.KernelIdeal.Launch
import proofs.«104640_j47047071760998_1_alg».proof.Proof.Gen.KernelIdeal.Skeleton
import proofs.«104640_j47047071760998_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first test: the column-tile coordinate is 0. -/
abbrev condFirst (i : grid0.Coords) : Prop :=
  (Scalar.cmpi .ne (Scalar.extui (Scalar.cmpi .eq (BitVec.ofNat 32 (i 1).val) 0#32)) 0#32) = 1#1
/-- The body's second test: the column-tile coordinate is 7, the last. -/
abbrev condLast (i : grid0.Coords) : Prop := k0_cond2 i = 1#1

/-! ## A whole-block access: the rectangle of the block's own sizes at zero offsets -/

section WholeBlock

variable {Val : EltTy → Type} {S : Shape} {e : EltTy}

/-- The zero offsets of a rank-2 access, spelt as a constant function. -/
private theorem hz : (![0, 0] : Fin 2 → Nat) = fun _ => 0 :=
  funext (Fin.forall_fin_two.2 ⟨rfl, rfl⟩)

/-- Such a rectangle places each index of the block at itself. -/
private theorem unit0_emb {off : Fin S.rank → Nat} (h : off = fun _ => 0) (inb : ∀ a, off a + S.size a ≤ S.size a)
    (x : S.Idx) : (Rect.unit off S.size inb).emb x = x := by
  subst h; exact Rect.emb_whole_apply S x

/-- So it holds every index of the block, -/
private theorem unit0_mem {off : Fin S.rank → Nat} (h : off = fun _ => 0) (inb : ∀ a, off a + S.size a ≤ S.size a)
    (y : S.Idx) : y ∈ (Rect.unit off S.size inb).set := by
  have hm : (Rect.unit off S.size inb).emb y ∈ (Rect.unit off S.size inb).set := by
    rw [← Rect.map_emb_univ]; exact Finset.mem_map_of_mem _ (Finset.mem_univ y)
  rwa [unit0_emb h inb y] at hm

/-- a load through it reads the contents, -/
private theorem unit0_ld {off : Fin S.rank → Nat} (h : off = fun _ => 0) (inb : ∀ a, off a + S.size a ≤ S.size a)
    (X : S.Idx → Val e) : View.ld X (Rect.unit off S.size inb) = X :=
  funext fun x => congrArg X (unit0_emb h inb x)

/-- a store through it, made last, leaves its payload whatever was stored before, -/
private theorem unit0_canon_cons [∀ e, Nonempty (Val e)] {off : Fin S.rank → Nat} (h : off = fun _ => 0)
    (inb : ∀ a, off a + S.size a ≤ S.size a) (w : S.Idx → Val e) (L : List (View.Piece Val S e)) :
    View.canon ((⟨Rect.unit off S.size inb, w⟩ : View.Piece Val S e) :: L) = w :=
  funext fun y => by
    have hc := View.canon_cons_emb (Val := Val) (Rect.unit off S.size inb) w L y
    rwa [unit0_emb h inb y] at hc

/-- and a load through it after one store through it reads that store's payload. -/
private theorem unit0_readCov [∀ e, Nonempty (Val e)] {sig : RefSig} {κ : Kind} {sp : Space} (v : View sig κ sp S e)
    {off : Fin S.rank → Nat} (h : off = fun _ => 0) (inb : ∀ a, off a + S.size a ≤ S.size a) (w : S.Idx → Val e) :
    v.readCov [(⟨Rect.unit off S.size inb, w⟩ : View.Piece Val S e)] (Rect.unit off S.size inb).toLoadRect = w := by
  rw [View.readCov_eq_canon_ld v _ _ (fun y => ⟨_, List.mem_singleton_self _, unit0_mem h inb y⟩),
    unit0_canon_cons h inb, unit0_ld h inb]

end WholeBlock

/-- The last store into a 1024 x 128 buffer is of the whole block, so the stores cover it. -/
private theorem cover1 (p : Vec F S1024x128 .f32) (L : List (View.Piece (Elt F) S1024x128 .f32)) (y : S1024x128.Idx) :
    ∃ pc ∈ ((⟨Rect.unit (s := S1024x128) ![0, 0] S1024x128.size inb_S1024x128_S1024x128_0_0, p⟩ :
      View.Piece (Elt F) S1024x128 .f32) :: L), y ∈ pc.1.set :=
  ⟨_, List.mem_cons_self, unit0_mem (S := S1024x128) hz inb_S1024x128_S1024x128_0_0 y⟩

set_option maxHeartbeats 1000000 in
/-- First column tile (not also the last): the scratch is reset, then holds the first product over the zero block. -/
theorem body_first (c : Dev nD) (E : Set ℕ) (i : grid0.Coords)
    (a2 : Memref sig .tc .vmem S1024x1024 .f32) (h2 : a2.IsWhole) (a3 : Memref sig .tc .vmem S1024x128 .f32) (h3 : a3.IsWhole)
    (a4 : Memref sig .tc .vmem S1024x128 .f32) (h4 : a4.IsWhole) (a5 : Memref sig .tc .vmem S1024x128 .f32) (h5 : a5.IsWhole)
    (hf : condFirst i) (hl : ¬condLast i)
    (x0 : Vec F S1024x1024 .f32) (x1 : Vec F S1024x128 .f32) (K : PUnit → sProp 𝕄) :
    iprop(owns (c : Thread nD τ) a2 fullShare x0 ∗ owns (c : Thread nD τ) a3 fullShare x1 ∗ (∃ d, owns (c : Thread nD τ) a5 fullShare d)
        ∗ (iprop(owns (c : Thread nD τ) a2 fullShare x0 ∗ owns (c : Thread nD τ) a3 fullShare x1
            ∗ owns (c : Thread nD τ) a5 fullShare (k0_pay2 x0 x1 k0_pay1)) -∗ K ⟨⟩))
      ⊢ wp frame (wpE (defs₀ (F := F)) Variants.none c none) E (cc0__matmul_kernel i a2 h2 a3 h3 a4 h4 a5 h5) K := by
  simp only [cc0__matmul_kernel_eq_skeleton]; unfold cc0__matmul_kernel_skel
  unfold owns
  iintro ⟨⟨%f0, %hf0, H0⟩, ⟨%f1, %hf1, H1⟩, ⟨%ds, %fs, -, HS⟩, Hk⟩
  obtain rfl := h2.eq_unread hf0; obtain rfl := h3.eq_unread hf1
  sl_exec (disch := first | exact hf | exact hl)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  -- the scratch holds the reset then the update; the update, stored last, is what it reads, and the value the update
  -- added to was loaded back from the reset: the zero block
  sl_unfold_run_names
  rw [View.read_writes_eq_canon _ _ _ (cover1 _ _), unit0_canon_cons (S := S1024x128) hz]
  simp only [View.readAt_eq_ld, h2.read_unread, h3.read_unread, unit0_readCov (S := S1024x128) _ hz,
    unit0_ld (S := S1024x1024) hz, unit0_ld (S := S1024x128) hz]

set_option maxHeartbeats 1000000 in
/-- A middle column tile: the scratch, at the running sum `xs`, gains this tile's product. -/
theorem body_mid (c : Dev nD) (E : Set ℕ) (i : grid0.Coords)
    (a2 : Memref sig .tc .vmem S1024x1024 .f32) (h2 : a2.IsWhole) (a3 : Memref sig .tc .vmem S1024x128 .f32) (h3 : a3.IsWhole)
    (a4 : Memref sig .tc .vmem S1024x128 .f32) (h4 : a4.IsWhole) (a5 : Memref sig .tc .vmem S1024x128 .f32) (h5 : a5.IsWhole)
    (hf : ¬condFirst i) (hl : ¬condLast i)
    (x0 : Vec F S1024x1024 .f32) (x1 : Vec F S1024x128 .f32) (xs : Vec F S1024x128 .f32) (K : PUnit → sProp 𝕄) :
    iprop(owns (c : Thread nD τ) a2 fullShare x0 ∗ owns (c : Thread nD τ) a3 fullShare x1 ∗ owns (c : Thread nD τ) a5 fullShare xs
        ∗ (iprop(owns (c : Thread nD τ) a2 fullShare x0 ∗ owns (c : Thread nD τ) a3 fullShare x1
            ∗ owns (c : Thread nD τ) a5 fullShare (k0_pay2 x0 x1 xs)) -∗ K ⟨⟩))
      ⊢ wp frame (wpE (defs₀ (F := F)) Variants.none c none) E (cc0__matmul_kernel i a2 h2 a3 h3 a4 h4 a5 h5) K := by
  simp only [cc0__matmul_kernel_eq_skeleton]; unfold cc0__matmul_kernel_skel
  unfold owns
  iintro ⟨⟨%f0, %hf0, H0⟩, ⟨%f1, %hf1, H1⟩, ⟨%fs, %hfs, HS⟩, Hk⟩
  obtain rfl := h2.eq_unread hf0; obtain rfl := h3.eq_unread hf1; obtain rfl := h5.eq_unread hfs
  sl_exec (disch := first | exact hf | exact hl)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  -- the scratch holds one whole-block store, of the update over the three blocks as loaded
  rw [View.read_writes_eq_canon _ _ _ (cover1 _ _), unit0_canon_cons (S := S1024x128) hz]
  simp only [View.readAt_eq_ld, h2.read_unread, h3.read_unread, h5.read_unread,
    unit0_ld (S := S1024x1024) hz, unit0_ld (S := S1024x128) hz]

set_option maxHeartbeats 1000000 in
/-- The last column tile: the scratch gains this tile's product and the output block receives the same sum. -/
theorem body_last (c : Dev nD) (E : Set ℕ) (i : grid0.Coords)
    (a2 : Memref sig .tc .vmem S1024x1024 .f32) (h2 : a2.IsWhole) (a3 : Memref sig .tc .vmem S1024x128 .f32) (h3 : a3.IsWhole)
    (a4 : Memref sig .tc .vmem S1024x128 .f32) (h4 : a4.IsWhole) (a5 : Memref sig .tc .vmem S1024x128 .f32) (h5 : a5.IsWhole)
    (hf : ¬condFirst i) (hl : condLast i)
    (x0 : Vec F S1024x1024 .f32) (x1 : Vec F S1024x128 .f32) (xs : Vec F S1024x128 .f32) (K : PUnit → sProp 𝕄) :
    iprop(owns (c : Thread nD τ) a2 fullShare x0 ∗ owns (c : Thread nD τ) a3 fullShare x1 ∗ owns (c : Thread nD τ) a5 fullShare xs
        ∗ (∃ d, owns (c : Thread nD τ) a4 fullShare d)
        ∗ (iprop(owns (c : Thread nD τ) a2 fullShare x0 ∗ owns (c : Thread nD τ) a3 fullShare x1
            ∗ owns (c : Thread nD τ) a5 fullShare (k0_pay2 x0 x1 xs) ∗ owns (c : Thread nD τ) a4 fullShare (k0_pay2 x0 x1 xs)) -∗ K ⟨⟩))
      ⊢ wp frame (wpE (defs₀ (F := F)) Variants.none c none) E (cc0__matmul_kernel i a2 h2 a3 h3 a4 h4 a5 h5) K := by
  simp only [cc0__matmul_kernel_eq_skeleton]; unfold cc0__matmul_kernel_skel
  unfold owns
  iintro ⟨⟨%f0, %hf0, H0⟩, ⟨%f1, %hf1, H1⟩, ⟨%fs, %hfs, HS⟩, ⟨%d4, %f4, -, H4⟩, Hk⟩
  obtain rfl := h2.eq_unread hf0; obtain rfl := h3.eq_unread hf1; obtain rfl := h5.eq_unread hfs
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [HS]
  · iexists _; isplitr
    swap; · iexact HS
    ipureintro
    -- the scratch holds one whole-block store, of the update over the three blocks as loaded
    sl_unfold_run_names
    rw [View.read_writes_eq_canon _ _ _ (cover1 _ _), unit0_canon_cons (S := S1024x128) hz]
    simp only [View.readAt_eq_ld, h2.read_unread, h3.read_unread, h5.read_unread,
      unit0_ld (S := S1024x1024) hz, unit0_ld (S := S1024x128) hz]
  iexists _; isplitr
  swap; · iexact H4
  ipureintro
  -- the output block holds one whole-block store, of the scratch as loaded back after its update
  sl_unfold_run_names
  rw [View.read_writes_eq_canon _ _ _ (cover1 _ _), unit0_canon_cons (S := S1024x128) hz]
  simp only [View.readAt_eq_ld, h2.read_unread, h3.read_unread, h5.read_unread, unit0_readCov (S := S1024x128) _ hz,
    unit0_ld (S := S1024x1024) hz, unit0_ld (S := S1024x128) hz]

/-- The second region's kernel function is the first's, word for word. -/
theorem cc1_eq_cc0 : @cc1__matmul_kernel F _ = @cc0__matmul_kernel F _ := rfl

end Cert.KernelIdeal.Mm

end
-- ==== Proof.Mm.Region0.lean ====
/-
  Region 0 of the program (the product of the left operand `main_arg3` with `main_v0`), at a parameter `V`: the
  contents of the core's buffers when the region is entered. The grid has 64 points, point `t` being row block
  `t / 8` and column tile `t % 8`. The scratch block carries the row block's running sum from point to point:
  it is reset at the points with `t % 8 = 0`, gains one tile product at every point, and is copied to the output
  block at the points with `t % 8 = 7`, the only points at which the output block is written back. This module
  states what the scratch holds after each point (`accAt0`), the region's invariant (`PhiS0`), the proof data
  (`dat0`) and proves the body obligation at every point from the body's three triples.
-/
import proofs.«104640_j47047071760998_1_alg».proof.Proof.Gen.KernelIdeal.Launch
import proofs.«104640_j47047071760998_1_alg».proof.Proof.Gen.KernelIdeal.Skeleton
import proofs.«104640_j47047071760998_1_alg».proof.Proof.Gen.KernelIdeal.Points
import proofs.«104640_j47047071760998_1_alg».proof.Proof.Mm.Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its tile at every point, for any proof data over `V` whose body leaves
    the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right operand's row tile. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two tests over the grid, and where the output block is idle -/

/-- The first test holds at the points whose column tile is 0. -/
theorem hfirst0 : ∀ t : Fin cfg0.N, condFirst (grid0.coords t) ↔ t.val % 8 = 0 :=
  (by decide +kernel : ∀ t : Fin grid0.N, condFirst (grid0.coords t) ↔ t.val % 8 = 0)
/-- The second test holds at the points whose column tile is 7. -/
theorem hlast0 : ∀ t : Fin cfg0.N, condLast (grid0.coords t) ↔ t.val % 8 = 7 :=
  (by decide +kernel : ∀ t : Fin grid0.N, condLast (grid0.coords t) ↔ t.val % 8 = 7)

theorem live0_0 : ∀ t : Fin cfg0.N, cfg0.idle 0 (grid0.coords t) = false := by decide +kernel
theorem live0_1 : ∀ t : Fin cfg0.N, cfg0.idle 1 (grid0.coords t) = false := by decide +kernel
/-- Away from the last column tile the output block is idle and is not written back. -/
theorem idle0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
/-- At the last column tile the output block is stored. -/
theorem live0_2 : ∀ t : Fin cfg0.N, condLast (grid0.coords t) → cfg0.idle 2 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The scratch block. -/
abbrev scM0 : Memref sig .tc .vmem S1024x128 .f32 := Memref.whole cc0_scratch0

/-- The scoped buffers of the core other than this region's staging buffers and its scratch, at some contents. -/
abbrev others0 (c : Dev nD) : sProp 𝕄 :=
  Pipeline.scopedRestBut (Ix := Unit) (Name := ℕ) (U := UR sig nD τ) (Lvl := ℕ) (Val := Elt F) spec0 c [cc0_scratch0]

/-- The region's plain invariant with the scratch block split off. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA others0
  rw [Pipeline.scopedRest_split_of_list spec0 c [cc0_scratch0] (by decide) (by decide)]
  simp only [bigSepL_singleton, scM0, owns_whole]
  rfl

/-! ## What the scratch holds after each point -/

/-- The running sum after point `n`: at a point with `n % 8 = 0` the tile product over the zero block, else the tile
    product over what the point before left. -/
def accAt0 (c : Dev nD) : (n : ℕ) → n < cfg0.N → Vec F S1024x128 .f32
  | 0, h => k0_pay2 (iblk0 V c 0 ⟨0, h⟩) (iblk0 V c 1 ⟨0, h⟩) k0_pay1
  | n + 1, h =>
    if (n + 1) % 8 = 0 then k0_pay2 (iblk0 V c 0 ⟨n + 1, h⟩) (iblk0 V c 1 ⟨n + 1, h⟩) k0_pay1
    else k0_pay2 (iblk0 V c 0 ⟨n + 1, h⟩) (iblk0 V c 1 ⟨n + 1, h⟩) (accAt0 c n (Nat.lt_of_succ_lt h))

theorem accAt0_first (c : Dev nD) (t : Fin cfg0.N) (h0 : t.val % 8 = 0) :
    accAt0 V c t.val t.isLt = k0_pay2 (iblk0 V c 0 t) (iblk0 V c 1 t) k0_pay1 := by
  obtain ⟨n, hn⟩ := t
  cases n with
  | zero => rfl
  | succ n => exact if_pos h0

theorem accAt0_next (c : Dev nD) (t : Fin cfg0.N) (h0 : ¬t.val % 8 = 0) :
    accAt0 V c t.val t.isLt
      = k0_pay2 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h0
  | succ n => exact if_neg h0

/-! ## The invariant -/

/-- Before the first point the plain invariant (the scratch at anything); after point `n` the scratch at the running
    sum, the other scoped buffers and the generator register at anything. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (accAt0 V c n hn) ∗ others0 (F := F) c) ∗ (∃ r, prngReg c r)) := rfl

theorem PhiS0_pos (c : Dev nD) (n : ℕ) (h : n ≤ cfg0.N) (hz : n ≠ 0) :
    PhiS0 V c n h = iprop((owns (c : Thread nD τ) scM0 fullShare (accAt0 V c (n - 1) (by omega)) ∗ others0 (F := F) c) ∗ (∃ r, prngReg c r)) := by
  cases n with
  | zero => exact absurd rfl hz
  | succ n => rfl

/-! ## The proof data -/

/-- The arrays as the region finds them; after the body each input's buffer at its tile and the output's at the
    running sum; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 2000000 in
/-- The body at any point. The inputs' buffers hold their tiles. By the point's column tile: at the first the scratch
    is at anything (before the very first point) or at the previous row block's sum, and the reset makes either
    irrelevant; at a middle tile the scratch holds what the point before left and gains this tile's product; at the
    last tile the output block receives the sum as well. The other scoped buffers, the generator register and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h7 : t.val % 8 = 7
  · -- the last column tile
    have h0 : ¬t.val % 8 = 0 := by omega
    have hz : t.val ≠ 0 := by omega
    have hl : condLast (grid0.coords t) := (hlast0 t).mpr h7
    have hf : ¬condFirst (grid0.coords t) := fun h => h0 ((hfirst0 t).mp h)
    rw [show (dat0 V c).leavesExact 2 t = owns (c : Thread nD τ) (ms0_2 t) fullShare ((dat0 V c).after 2 t) from by
      unfold Dat.leavesExact; rw [live0_2 t hl], after0_2]
    rw [accAt0_next V c t h0, PhiS0_castSucc V c t, PhiS0_pos V c _ _ hz]
    iintro ⟨⟨⟨HS, Hoth⟩, Hg⟩, Ho, ⟨%d0, H0⟩, ⟨%d1, H1⟩, ⟨%d2, H2⟩⟩
    iapply (body_last c Set.univ (grid0.coords t) (ms0_0 t) (hs0_0 t) (ms0_1 t) (hs0_1 t) (ms0_2 t) (hs0_2 t) scM0 (Memref.isWhole_whole _)
      hf hl (iblk0 V c 0 t) (iblk0 V c 1 t) (accAt0 V c (t.val - 1) (Nat.lt_of_le_of_lt (Nat.sub_le _ _) t.isLt)) _)
    isplitl [H0]; · iexact H0
    isplitl [H1]; · iexact H1
    isplitl [HS]; · iexact HS
    isplitl [H2]; · iexists _; iexact H2
    iintro ⟨H0, H1, HS, H2⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · have hl : ¬condLast (grid0.coords t) := fun h => h7 ((hlast0 t).mp h)
    rw [Dat.leavesExact_idle (dat0 V c) 2 t (idle0_2 t hl) (noFlush0_2 t hl)]
    by_cases h0 : t.val % 8 = 0
    · -- the first column tile: the scratch is reset
      have hf : condFirst (grid0.coords t) := (hfirst0 t).mpr h0
      rw [accAt0_first V c t h0]
      by_cases hz : t.val = 0
      · rw [PhiS0_castSucc V c t, PhiS0_zero V c _ _ hz, PhiA0_eq]
        iintro ⟨⟨⟨HS, Hoth⟩, Hg⟩, Ho, ⟨%d0, H0⟩, ⟨%d1, H1⟩, ⟨%d2, H2⟩⟩
        iapply (body_first c Set.univ (grid0.coords t) (ms0_0 t) (hs0_0 t) (ms0_1 t) (hs0_1 t) (ms0_2 t) (hs0_2 t) scM0 (Memref.isWhole_whole _)
          hf hl (iblk0 V c 0 t) (iblk0 V c 1 t) _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, Hoth⟩, Hg⟩, Ho, ⟨%d0, H0⟩, ⟨%d1, H1⟩, ⟨%d2, H2⟩⟩
        iapply (body_first c Set.univ (grid0.coords t) (ms0_0 t) (hs0_0 t) (ms0_1 t) (hs0_1 t) (ms0_2 t) (hs0_2 t) scM0 (Memref.isWhole_whole _)
          hf hl (iblk0 V c 0 t) (iblk0 V c 1 t) _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
    · -- a middle column tile
      have hf : ¬condFirst (grid0.coords t) := fun h => h0 ((hfirst0 t).mp h)
      have hz : t.val ≠ 0 := fun e => h0 (by rw [e])
      rw [accAt0_next V c t h0, PhiS0_castSucc V c t, PhiS0_pos V c _ _ hz]
      iintro ⟨⟨⟨HS, Hoth⟩, Hg⟩, Ho, ⟨%d0, H0⟩, ⟨%d1, H1⟩, ⟨%d2, H2⟩⟩
      iapply (body_mid c Set.univ (grid0.coords t) (ms0_0 t) (hs0_0 t) (ms0_1 t) (hs0_1 t) (ms0_2 t) (hs0_2 t) scM0 (Memref.isWhole_whole _)
        hf hl (iblk0 V c 0 t) (iblk0 V c 1 t) (accAt0 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- The plain invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: the running sum is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, Hoth⟩, Hg⟩
  isplitl [HS Hoth]
  · isplitl [HS]; · iexists _; iexact HS
    iexact Hoth
  iexact Hg

end Cert.KernelIdeal.Mm

end
-- ==== Proof.Mm.Region1.lean ====
/-
  Region 1 of the program (the product of the left operand `main_arg2` with `main_v7`), at a parameter `V`: the
  contents of the core's buffers when the region is entered. The grid has 64 points, point `t` being row block
  `t / 8` and column tile `t % 8`. The scratch block carries the row block's running sum from point to point:
  it is reset at the points with `t % 8 = 0`, gains one tile product at every point, and is copied to the output
  block at the points with `t % 8 = 7`, the only points at which the output block is written back. This module
  states what the scratch holds after each point (`accAt1`), the region's invariant (`PhiS1`), the proof data
  (`dat1`) and proves the body obligation at every point from the body's three triples.
-/
import proofs.«104640_j47047071760998_1_alg».proof.Proof.Gen.KernelIdeal.Launch
import proofs.«104640_j47047071760998_1_alg».proof.Proof.Gen.KernelIdeal.Skeleton
import proofs.«104640_j47047071760998_1_alg».proof.Proof.Gen.KernelIdeal.Points
import proofs.«104640_j47047071760998_1_alg».proof.Proof.Mm.Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its tile at every point, for any proof data over `V` whose body leaves
    the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand's row tile. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two tests over the grid, and where the output block is idle -/

/-- The first test holds at the points whose column tile is 0. -/
theorem hfirst1 : ∀ t : Fin cfg1.N, condFirst (grid1.coords t) ↔ t.val % 8 = 0 :=
  (by decide +kernel : ∀ t : Fin grid1.N, condFirst (grid1.coords t) ↔ t.val % 8 = 0)
/-- The second test holds at the points whose column tile is 7. -/
theorem hlast1 : ∀ t : Fin cfg1.N, condLast (grid1.coords t) ↔ t.val % 8 = 7 :=
  (by decide +kernel : ∀ t : Fin grid1.N, condLast (grid1.coords t) ↔ t.val % 8 = 7)

theorem live1_0 : ∀ t : Fin cfg1.N, cfg1.idle 0 (grid1.coords t) = false := by decide +kernel
theorem live1_1 : ∀ t : Fin cfg1.N, cfg1.idle 1 (grid1.coords t) = false := by decide +kernel
/-- Away from the last column tile the output block is idle and is not written back. -/
theorem idle1_2 : ∀ t : Fin cfg1.N, ¬condLast (grid1.coords t) → cfg1.idle 2 (grid1.coords t) = true := by decide +kernel
theorem noFlush1_2 : ∀ t : Fin cfg1.N, ¬condLast (grid1.coords t) → (cfg1.win 2).flush t = false := by decide +kernel
/-- At the last column tile the output block is stored. -/
theorem live1_2 : ∀ t : Fin cfg1.N, condLast (grid1.coords t) → cfg1.idle 2 (grid1.coords t) = false := by decide +kernel

/-! ## The memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The scratch block. -/
abbrev scM1 : Memref sig .tc .vmem S1024x128 .f32 := Memref.whole cc1_scratch0

/-- The scoped buffers of the core other than this region's staging buffers and its scratch, at some contents. -/
abbrev others1 (c : Dev nD) : sProp 𝕄 :=
  Pipeline.scopedRestBut (Ix := Unit) (Name := ℕ) (U := UR sig nD τ) (Lvl := ℕ) (Val := Elt F) spec1 c [cc1_scratch0]

/-- The region's plain invariant with the scratch block split off. -/
theorem PhiA1_eq (c : Dev nD) :
    (Pipeline.ΦA spec1 c : sProp 𝕄)
      = iprop(((∃ d, owns (c : Thread nD τ) scM1 fullShare d) ∗ others1 (F := F) c) ∗ (∃ r, prngReg c r)) := by
  unfold Pipeline.ΦA others1
  rw [Pipeline.scopedRest_split_of_list spec1 c [cc1_scratch0] (by decide) (by decide)]
  simp only [bigSepL_singleton, scM1, owns_whole]
  rfl

/-! ## What the scratch holds after each point -/

/-- The running sum after point `n`: at a point with `n % 8 = 0` the tile product over the zero block, else the tile
    product over what the point before left. -/
def accAt1 (c : Dev nD) : (n : ℕ) → n < cfg1.N → Vec F S1024x128 .f32
  | 0, h => k0_pay2 (iblk1 V c 0 ⟨0, h⟩) (iblk1 V c 1 ⟨0, h⟩) k0_pay1
  | n + 1, h =>
    if (n + 1) % 8 = 0 then k0_pay2 (iblk1 V c 0 ⟨n + 1, h⟩) (iblk1 V c 1 ⟨n + 1, h⟩) k0_pay1
    else k0_pay2 (iblk1 V c 0 ⟨n + 1, h⟩) (iblk1 V c 1 ⟨n + 1, h⟩) (accAt1 c n (Nat.lt_of_succ_lt h))

theorem accAt1_first (c : Dev nD) (t : Fin cfg1.N) (h0 : t.val % 8 = 0) :
    accAt1 V c t.val t.isLt = k0_pay2 (iblk1 V c 0 t) (iblk1 V c 1 t) k0_pay1 := by
  obtain ⟨n, hn⟩ := t
  cases n with
  | zero => rfl
  | succ n => exact if_pos h0

theorem accAt1_next (c : Dev nD) (t : Fin cfg1.N) (h0 : ¬t.val % 8 = 0) :
    accAt1 V c t.val t.isLt
      = k0_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant -/

/-- Before the first point the plain invariant (the scratch at anything); after point `n` the scratch at the running
    sum, the other scoped buffers and the generator register at anything. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (accAt1 V c n hn) ∗ others1 (F := F) c) ∗ (∃ r, prngReg c r)) := rfl

theorem PhiS1_pos (c : Dev nD) (n : ℕ) (h : n ≤ cfg1.N) (hz : n ≠ 0) :
    PhiS1 V c n h = iprop((owns (c : Thread nD τ) scM1 fullShare (accAt1 V c (n - 1) (by omega)) ∗ others1 (F := F) c) ∗ (∃ r, prngReg c r)) := by
  cases n with
  | zero => exact absurd rfl hz
  | succ n => rfl

/-! ## The proof data -/

/-- The arrays as the region finds them; after the body each input's buffer at its tile and the output's at the
    running sum; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 2000000 in
/-- The body at any point. The inputs' buffers hold their tiles. By the point's column tile: at the first the scratch
    is at anything (before the very first point) or at the previous row block's sum, and the reset makes either
    irrelevant; at a middle tile the scratch holds what the point before left and gains this tile's product; at the
    last tile the output block receives the sum as well. The other scoped buffers, the generator register and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [cc1_eq_cc0]
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h7 : t.val % 8 = 7
  · -- the last column tile
    have h0 : ¬t.val % 8 = 0 := by omega
    have hz : t.val ≠ 0 := by omega
    have hl : condLast (grid1.coords t) := (hlast1 t).mpr h7
    have hf : ¬condFirst (grid1.coords t) := fun h => h0 ((hfirst1 t).mp h)
    rw [show (dat1 V c).leavesExact 2 t = owns (c : Thread nD τ) (ms1_2 t) fullShare ((dat1 V c).after 2 t) from by
      unfold Dat.leavesExact; rw [live1_2 t hl], after1_2]
    rw [accAt1_next V c t h0, PhiS1_castSucc V c t, PhiS1_pos V c _ _ hz]
    iintro ⟨⟨⟨HS, Hoth⟩, Hg⟩, Ho, ⟨%d0, H0⟩, ⟨%d1, H1⟩, ⟨%d2, H2⟩⟩
    iapply (body_last c Set.univ (grid1.coords t) (ms1_0 t) (hs1_0 t) (ms1_1 t) (hs1_1 t) (ms1_2 t) (hs1_2 t) scM1 (Memref.isWhole_whole _)
      hf hl (iblk1 V c 0 t) (iblk1 V c 1 t) (accAt1 V c (t.val - 1) (Nat.lt_of_le_of_lt (Nat.sub_le _ _) t.isLt)) _)
    isplitl [H0]; · iexact H0
    isplitl [H1]; · iexact H1
    isplitl [HS]; · iexact HS
    isplitl [H2]; · iexists _; iexact H2
    iintro ⟨H0, H1, HS, H2⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · have hl : ¬condLast (grid1.coords t) := fun h => h7 ((hlast1 t).mp h)
    rw [Dat.leavesExact_idle (dat1 V c) 2 t (idle1_2 t hl) (noFlush1_2 t hl)]
    by_cases h0 : t.val % 8 = 0
    · -- the first column tile: the scratch is reset
      have hf : condFirst (grid1.coords t) := (hfirst1 t).mpr h0
      rw [accAt1_first V c t h0]
      by_cases hz : t.val = 0
      · rw [PhiS1_castSucc V c t, PhiS1_zero V c _ _ hz, PhiA1_eq]
        iintro ⟨⟨⟨HS, Hoth⟩, Hg⟩, Ho, ⟨%d0, H0⟩, ⟨%d1, H1⟩, ⟨%d2, H2⟩⟩
        iapply (body_first c Set.univ (grid1.coords t) (ms1_0 t) (hs1_0 t) (ms1_1 t) (hs1_1 t) (ms1_2 t) (hs1_2 t) scM1 (Memref.isWhole_whole _)
          hf hl (iblk1 V c 0 t) (iblk1 V c 1 t) _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS, Hoth⟩, Hg⟩, Ho, ⟨%d0, H0⟩, ⟨%d1, H1⟩, ⟨%d2, H2⟩⟩
        iapply (body_first c Set.univ (grid1.coords t) (ms1_0 t) (hs1_0 t) (ms1_1 t) (hs1_1 t) (ms1_2 t) (hs1_2 t) scM1 (Memref.isWhole_whole _)
          hf hl (iblk1 V c 0 t) (iblk1 V c 1 t) _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
    · -- a middle column tile
      have hf : ¬condFirst (grid1.coords t) := fun h => h0 ((hfirst1 t).mp h)
      have hz : t.val ≠ 0 := fun e => h0 (by rw [e])
      rw [accAt1_next V c t h0, PhiS1_castSucc V c t, PhiS1_pos V c _ _ hz]
      iintro ⟨⟨⟨HS, Hoth⟩, Hg⟩, Ho, ⟨%d0, H0⟩, ⟨%d1, H1⟩, ⟨%d2, H2⟩⟩
      iapply (body_mid c Set.univ (grid1.coords t) (ms1_0 t) (hs1_0 t) (ms1_1 t) (hs1_1 t) (ms1_2 t) (hs1_2 t) scM1 (Memref.isWhole_whole _)
        hf hl (iblk1 V c 0 t) (iblk1 V c 1 t) (accAt1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- The plain invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the running sum is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hoth⟩, Hg⟩
  isplitl [HS Hoth]
  · isplitl [HS]; · iexists _; iexact HS
    iexact Hoth
  iexact Hg

end Cert.KernelIdeal.Mm

end
-- ==== Proof.Mm.Regs.lean ====
/-
  The whole program's run. Between @main's five items (a host stretch, region 0, a host stretch, region 1, a host
  stretch) the core's unscoped buffers are held at the contents the items before left: the launch contents, then each
  host stretch's operations applied, then a region's output array at what its write-backs leave (`out0`, `out1`:
  the pipeline library's fold of the flushed blocks) and every other buffer unchanged. Each region is entered by
  splitting its three arrays out of the unscoped buffers and left by putting them back; the generator register and the
  scoped buffers go into the region's invariant and come back; nothing is owed. The run ends with the result
  buffer `main_v11` at the last valuation and every argument array as launched.
-/
import proofs.«104640_j47047071760998_1_alg».proof.Proof.Gen.KernelIdeal.Launch
import proofs.«104640_j47047071760998_1_alg».proof.Proof.Gen.KernelIdeal.Skeleton
import proofs.«104640_j47047071760998_1_alg».proof.Proof.Gen.KernelIdeal.Points
import proofs.«104640_j47047071760998_1_alg».proof.Proof.Mm.Region0
import proofs.«104640_j47047071760998_1_alg».proof.Proof.Mm.Region1
import proofs.«104640_j47047071760998_1_alg».proof.Proof.Gen.KernelIdeal.Regions
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between the items -/

/-- At region 0's entry: the launch contents after the first host stretch, read at the TensorCore's references. -/
abbrev in0 (c : Dev nD) (b : Ref sig .tc) : Buf (Elt F) ((c : Thread nD τ).loc b) := Gen.V1 m c b

/-- Region 0's output array after the region. -/
def out0 (c : Dev nD) : Buf (Elt F) ((c : Thread nD τ).loc main_v4) := (dat0 (in0 m) c).arrAt 2 cfg0.N

/-- After region 0: its output array at `out0`, every other buffer as entered. -/
abbrev U2 (c : Dev nD) : Valuation τ sig (Elt F) := Function.update (Gen.V1 m c) main_v4 (out0 m c)
/-- After the second host stretch: region 1's entry. -/
abbrev U3 (c : Dev nD) : Valuation τ sig (Elt F) := StableHlo.after hostOps1 (U2 m c)
abbrev in1 (c : Dev nD) (b : Ref sig .tc) : Buf (Elt F) ((c : Thread nD τ).loc b) := U3 m c b

/-- Region 1's output array after the region. -/
def out1 (c : Dev nD) : Buf (Elt F) ((c : Thread nD τ).loc main_v8) := (dat1 (in1 m) c).arrAt 2 cfg1.N

/-- After region 1. -/
abbrev U4 (c : Dev nD) : Valuation τ sig (Elt F) := Function.update (U3 m c) main_v8 (out1 m c)
/-- After the last host stretch: the end. -/
abbrev U5 (c : Dev nD) : Valuation τ sig (Elt F) := StableHlo.after hostOps2 (U4 m c)

/-- What the regions leave, as the generated host side reads it. -/
abbrev outs : Gen.Outs (F := F) := fun J r c => match J with
  | 2 => U2 m c r
  | _ => U4 m c r

theorem V2_eq (c : Dev nD) : Gen.V2 m (outs m) c = U2 m c := by
  show Function.update (Gen.V1 m c) main_v4 (Function.update (Gen.V1 m c) main_v4 (out0 m c) main_v4) = _
  rw [Function.update_self]
theorem V3_eq (c : Dev nD) : Gen.V3 m (outs m) c = U3 m c := by
  show StableHlo.after hostOps1 (Gen.V2 m (outs m) c) = _
  rw [V2_eq]
theorem V4_eq (c : Dev nD) : Gen.V4 m (outs m) c = U4 m c := by
  show Function.update (Gen.V3 m (outs m) c) main_v8 (Function.update (U3 m c) main_v8 (out1 m c) main_v8) = _
  rw [Function.update_self, V3_eq]
theorem V5_eq (c : Dev nD) : Gen.V5 m (outs m) c = U5 m c := by
  show StableHlo.after hostOps2 (Gen.V4 m (outs m) c) = _
  rw [V4_eq]

theorem U2_out (c : Dev nD) : U2 m c main_v4 = out0 m c := Function.update_self _ _ _
theorem U2_of_ne (c : Dev nD) (b : Ref sig .tc) (h : b ≠ main_v4) : U2 m c b = Gen.V1 m c b :=
  Function.update_of_ne (StableHlo.devRef_ne_of_ne h) _ _
theorem U4_out (c : Dev nD) : U4 m c main_v8 = out1 m c := Function.update_self _ _ _
theorem U4_of_ne (c : Dev nD) (b : Ref sig .tc) (h : b ≠ main_v8) : U4 m c b = U3 m c b :=
  Function.update_of_ne (StableHlo.devRef_ne_of_ne h) _ _

/-! ## The proof data family and what rides along -/

/-- Both pipelines' proof data, each at its region's entry contents. -/
def pdats : (p : Fin 2) → (c : Dev nD) → Dat τ (Elt F) Unit ℕ (UR sig nD τ) ℕ (cfgs p) c
  | ⟨0, _⟩ => fun c => dat0 (in0 m) c
  | ⟨1, _⟩ => fun c => dat1 (in1 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state and the core's dues, none. -/
abbrev R (c : Dev nD) : sProp 𝕄 := iprop((∃ r, prngReg c r) ∗ ∃ W, owes (c : Thread nD τ) (0 : CellTallies nD τ sig Unit) W)

/-! ## The regions -/

set_option backward.isDefEq.respectTransparency.types false in
/-- Region 0: entered from the unscoped buffers at the first host stretch's contents, left at `U2`. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (in0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (in0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (in0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (in0 m c) (fun b => U2 m c b) ((pdats m 0 c).arrAt · cfg0.N)
      (fun w => by
        fin_cases w
        · show (dat0 (in0 m) c).arrAt 0 cfg0.N = U2 m c main_arg3
          exact ((dat0 (in0 m) c).arrAt_in 0 rfl _).trans ((A_eq0 (in0 m) c 0).trans (U2_of_ne m c main_arg3 (by decide)).symm)
        · show (dat0 (in0 m) c).arrAt 1 cfg0.N = U2 m c main_v0
          exact ((dat0 (in0 m) c).arrAt_in 1 rfl _).trans ((A_eq0 (in0 m) c 1).trans (U2_of_ne m c main_v0 (by decide)).symm)
        · show (dat0 (in0 m) c).arrAt 2 cfg0.N = U2 m c main_v4
          exact (U2_out m c).symm)
      (fun b hb => U2_of_ne m c b fun h => hb (by subst h; exact Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the unscoped buffers at the second host stretch's contents, left at `U4`. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (in1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (in1 m c) (fun b => U4 m c b) ((pdats m 1 c).arrAt · cfg1.N)
      (fun w => by
        fin_cases w
        · show (dat1 (in1 m) c).arrAt 0 cfg1.N = U4 m c main_arg2
          exact ((dat1 (in1 m) c).arrAt_in 0 rfl _).trans ((A_eq1 (in1 m) c 0).trans (U4_of_ne m c main_arg2 (by decide)).symm)
        · show (dat1 (in1 m) c).arrAt 1 cfg1.N = U4 m c main_v7
          exact ((dat1 (in1 m) c).arrAt_in 1 rfl _).trans ((A_eq1 (in1 m) c 1).trans (U4_of_ne m c main_v7 (by decide)).symm)
        · show (dat1 (in1 m) c).arrAt 2 cfg1.N = U4 m c main_v8
          exact (U4_out m c).symm)
      (fun b hb => U4_of_ne m c b fun h => hb (by subst h; exact Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

theorem hpre0 (c : Dev nD) : iprop(StableHlo.held (c : Thread nD τ) (Pipeline.ucRefs τ sig) (Gen.V1 m c) ∗ R (F := F) c) ⊢ (reg0 m).pre c := .rfl
theorem hpost0 (c : Dev nD) : (reg0 m).post c ⊢ iprop(StableHlo.held (c : Thread nD τ) (Pipeline.ucRefs τ sig) (Gen.V2 m (outs m) c) ∗ R (F := F) c) := by
  rw [V2_eq]; exact .rfl
theorem hpre1 (c : Dev nD) : iprop(StableHlo.held (c : Thread nD τ) (Pipeline.ucRefs τ sig) (Gen.V3 m (outs m) c) ∗ R (F := F) c) ⊢ (reg1 m).pre c := by
  rw [V3_eq]; exact .rfl
theorem hpost1 (c : Dev nD) : (reg1 m).post c ⊢ iprop(StableHlo.held (c : Thread nD τ) (Pipeline.ucRefs τ sig) (Gen.V4 m (outs m) c) ∗ R (F := F) c) := by
  rw [V4_eq]; exact .rfl

set_option backward.isDefEq.respectTransparency.types false in
/-- From any memory with zero counters every weakly fair execution of @main terminates, nothing faulting; the result
    buffer ends at the last valuation and every argument array as launched. The launch deals the generator register and
    the (empty) dues to every core; the items chain through the valuations above; the end reads the unscoped buffers. -/
theorem run_named : θ_run defs (onTc (τ := τ) (main (F := F))) ⟨m, fun _ => 0, ρ⟩ (fun r => ∀ c : Dev nD,
      r.2.mem ((c.tc : Thread nD τ).loc main_v11) = U5 m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
    refine Pipeline.initEach L lv fun c => ?_
    iintro ⟨⟨-, HO, -, Hp, -⟩, -⟩
    imodintro
    isplitl [Hp]; · iexists _; iexact Hp
    iexists ∅; iexact HO
  refine Pipeline.θ_run_regions_kit_dev (pcfgs (F := F)) Gen.adm (pdats m) () cellOf_inj emb₁ defs₀ 𝒱₀ L lv m ρ main
    (Gen.segs m (outs m) 𝒱₀ L lv (fun _ c => R (F := F) c) () (pdats m) (reg0 m) (reg1 m))
    (fun c Q => by
      rewrite [main_chain c, Seg.run_eq_chain,
        show (Gen.segs m (outs m) 𝒱₀ L lv (fun _ c => R (F := F) c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) (0 : Dev nD → CellTallies nD τ sig Unit) (fun _ _ => rfl)
    (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R (F := F) c))
    (Tₙ := fun c => StableHlo.held (c : Thread nD τ) (Pipeline.ucRefs τ sig) (Gen.V5 m (outs m) c))
    (hch := fun c => ⟨.rfl, hpre0 m c, hpost0 m c, hpre1 m c, hpost1 m c, sep_mono .rfl (by iintro ⟨-, H⟩; iexact H)⟩)
    (hinit := ?_) (QY := fun c s => s.mem ((c.tc : Thread nD τ).loc main_v11) = U5 m c main_v11 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are held at the launch contents; the rest makes `R` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (fun c : Dev nD => R (F := F) c)]
    isplitl [Hh]; · iexact Hh
    iexact HE
  · -- the end: the result and each argument read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨(h (Proc.devRef .tc main_v11) (Finset.mem_filter.mpr ⟨StableHlo.devRef_mem_tcRefs main_v11, by decide⟩)).trans (by rw [V5_eq]),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c),
        (h (Proc.devRef .tc main_arg4) (Finset.mem_filter.mpr ⟨StableHlo.devRef_mem_tcRefs main_arg4, by decide⟩)).trans (Gen.V5_main_arg4 m (outs m) c),
        (h (Proc.devRef .tc main_arg5) (Finset.mem_filter.mpr ⟨StableHlo.devRef_mem_tcRefs main_arg5, by decide⟩)).trans (Gen.V5_main_arg5 m (outs m) c),
        (h (Proc.devRef .tc main_arg6) (Finset.mem_filter.mpr ⟨StableHlo.devRef_mem_tcRefs main_arg6, by decide⟩)).trans (Gen.V5_main_arg6 m (outs m) c)⟩
    · iexact HSI

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_named m ρ)

end Cert.KernelIdeal.Mm

end
-- ==== Proof.Mm.Defs.lean ====
/-
  The blocked matrix product both kernel regions compute, as pure functions of the two operand arrays, at any float
  instance. An 8192 x 8192 left operand is cut into 8 x 8 tiles of 1024 x 1024, an 8192 x 128 right operand into 8
  row tiles of 1024 x 128. Row block `p` of the result is accumulated over the column tiles `s = 0, …, 7`: the
  accumulator starts from the zero block and each step adds the product of tile `(p, s)` with row tile `s`
  (the kernel body's stored value, `k0_pay2`). `Kmm A B` is the whole 8192 x 128 array so obtained.
-/
import proofs.«104640_j47047071760998_1_alg».proof.Proof.Gen.KernelIdeal.Skeleton
import Idealize.ShloMosaic.Lib.ValueIdx

noncomputable section

namespace Cert.KernelIdeal.Mm

open Cert.KernelIdeal Cert.KernelIdeal.Gen Idealize.ShloMosaic Idealize.ShloMosaic.ValueIdx

variable {F : FTy → Type} [FloatOps F]

/-- Tile `(p, s)` of the left operand: rows `1024 p …`, columns `1024 s …`. -/
def tileA (A : Vec F S8192x8192 .f32) (p s : Fin 8) : Vec F S1024x1024 .f32 :=
  fun y => A (ix2 (n0 := 8192) (n1 := 8192) ⟨1024 * p.val + (y 0).val, by have := idx2_lt0 y; omega⟩
    ⟨1024 * s.val + (y 1).val, by have := idx2_lt1 y; omega⟩)

/-- Row tile `s` of the right operand: rows `1024 s …`, all 128 columns. -/
def tileB (B : Vec F S8192x128 .f32) (s : Fin 8) : Vec F S1024x128 .f32 :=
  fun y => B (ix2 (n0 := 8192) (n1 := 128) ⟨1024 * s.val + (y 0).val, by have := idx2_lt0 y; omega⟩
    ⟨(y 1).val, idx2_lt1 y⟩)

/-- Row block `p`'s accumulator after the column tiles `0 … s`: the zero block plus the first tile's product, then one
    more product per step. -/
def accRow (A : Vec F S8192x8192 .f32) (B : Vec F S8192x128 .f32) (p : Fin 8) : (s : ℕ) → s < 8 → Vec F S1024x128 .f32
  | 0, h => k0_pay2 (tileA A p ⟨0, h⟩) (tileB B ⟨0, h⟩) k0_pay1
  | s + 1, h => k0_pay2 (tileA A p ⟨s + 1, h⟩) (tileB B ⟨s + 1, h⟩) (accRow A B p s (Nat.lt_of_succ_lt h))

theorem accRow_zero (A : Vec F S8192x8192 .f32) (B : Vec F S8192x128 .f32) (p : Fin 8) (h : 0 < 8) :
    accRow A B p 0 h = k0_pay2 (tileA A p ⟨0, h⟩) (tileB B ⟨0, h⟩) k0_pay1 := rfl

theorem accRow_succ (A : Vec F S8192x8192 .f32) (B : Vec F S8192x128 .f32) (p : Fin 8) (s : ℕ) (h : s + 1 < 8) :
    accRow A B p (s + 1) h = k0_pay2 (tileA A p ⟨s + 1, h⟩) (tileB B ⟨s + 1, h⟩) (accRow A B p s (Nat.lt_of_succ_lt h)) := rfl

/-- The blocked product: entry `(r, j)` is row block `r / 1024`'s full accumulator at `(r % 1024, j)`. -/
def Kmm (A : Vec F S8192x8192 .f32) (B : Vec F S8192x128 .f32) : Vec F S8192x128 .f32 :=
  fun i => accRow A B ⟨(i 0).val / 1024, by have := idx2_lt0 i; omega⟩ 7 (by decide)
    (ix2 (n0 := 1024) (n1 := 128) ⟨(i 0).val % 1024, Nat.mod_lt _ (by decide)⟩ ⟨(i 1).val, idx2_lt1 i⟩)

end Cert.KernelIdeal.Mm

end
-- ==== Proof.Mm.Array0.lean ====
/-
  Region 0's output array after the run, as one function of its two operand arrays. Point `t` of the 8 x 8 grid is
  row block `t / 8` and column tile `t % 8`. The left window's block at `t` is tile `(t / 8, t % 8)` of the
  8192 x 8192 operand, the right window's block is row tile `t % 8` of the 8192 x 128 operand, and the output window's
  block is rows `1024 (t / 8) …` of the 8192 x 128 result. Along a row block `p` the running sum after the point
  `8 p + s` is the accumulator `accRow … p s` of the blocked product; the output block is written back only at
  the points `8 p + 7`, where the running sum is the full accumulator, that is block `p` of `Kmm`. The eight
  written blocks cover the array (row `r` lies in the block of the point `8 (r / 1024) + 7`), so the array ends
  holding `Kmm` of the operands.
-/
import proofs.«104640_j47047071760998_1_alg».proof.Proof.Mm.Region0
import proofs.«104640_j47047071760998_1_alg».proof.Proof.Mm.Defs
import Idealize.ShloMosaic.Lib.Pipeline.Value
import Idealize.ShloMosaic.Lib.ValueIdx

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The printed index maps over the grid -/

/-- The left window's block index at point `t` is `(t / 8, t % 8)`. -/
theorem idxLeft : ∀ t : Fin cfg0.N, win0_0.index t (0 : Fin 2) = t.val / 8 ∧ win0_0.index t (1 : Fin 2) = t.val % 8 :=
  (by decide +kernel : ∀ t : Fin grid0.N, _)

/-- The right window's block index at point `t` is `(t % 8, 0)`. -/
theorem idxRight : ∀ t : Fin cfg0.N, win0_1.index t (0 : Fin 2) = t.val % 8 ∧ win0_1.index t (1 : Fin 2) = 0 :=
  (by decide +kernel : ∀ t : Fin grid0.N, _)

/-- The output window's block index at point `t` is `(t / 8, 0)`. -/
theorem idxOut : ∀ t : Fin cfg0.N, win0_2.index t (0 : Fin 2) = t.val / 8 ∧ win0_2.index t (1 : Fin 2) = 0 :=
  (by decide +kernel : ∀ t : Fin grid0.N, _)

/-- The grid has 64 points. -/
theorem pointLt (t : Fin cfg0.N) : t.val < 64 := lt_of_lt_of_eq t.isLt (show cfg0.N = 64 from N_0)

/-- A natural below 64 is a point of the grid. -/
theorem ltPoint {n : ℕ} (h : n < 64) : n < cfg0.N := lt_of_lt_of_eq h (show cfg0.N = 64 from N_0).symm

/-! ## The input blocks as tiles -/

/-- The left window's block at point `t` is tile `(t / 8, t % 8)` of the left operand: an element of the block sits
    in the array at block index times 1024 plus its own coordinate, on both axes. -/
theorem left0 (c : Dev nD) (t : Fin cfg0.N) :
    iblk0 V c 0 t = tileA (V c main_arg3) ⟨t.val / 8, by have := pointLt t; omega⟩ ⟨t.val % 8, Nat.mod_lt _ (by decide)⟩ := by
  obtain ⟨e0, e1⟩ := idxLeft t
  funext y
  show V c main_arg3 (((cfg0.win 0).blk t).view.emb y) = V c main_arg3 _
  congr 1
  funext a
  apply Fin.ext
  match a with
  | ⟨0, _⟩ => show win0_0.index t (0 : Fin 2) * 1024 + 1 * (y 0).val = 1024 * (t.val / 8) + (y 0).val; rw [e0]; omega
  | ⟨1, _⟩ => show win0_0.index t (1 : Fin 2) * 1024 + 1 * (y 1).val = 1024 * (t.val % 8) + (y 1).val; rw [e1]; omega

/-- The right window's block at point `t` is row tile `t % 8` of the right operand. -/
theorem right0 (c : Dev nD) (t : Fin cfg0.N) :
    iblk0 V c 1 t = tileB (V c main_v0) ⟨t.val % 8, Nat.mod_lt _ (by decide)⟩ := by
  obtain ⟨e0, e1⟩ := idxRight t
  funext y
  show V c main_v0 (((cfg0.win 1).blk t).view.emb y) = V c main_v0 _
  congr 1
  funext a
  apply Fin.ext
  match a with
  | ⟨0, _⟩ => show win0_1.index t (0 : Fin 2) * 1024 + 1 * (y 0).val = 1024 * (t.val % 8) + (y 0).val; rw [e0]; omega
  | ⟨1, _⟩ => show win0_1.index t (1 : Fin 2) * 128 + 1 * (y 1).val = (y 1).val; rw [e1]; omega

/-- The left block at the point of row block `p`, column tile `s`. -/
theorem leftAt (c : Dev nD) (p : Fin 8) (s : ℕ) (hs : s < 8) (h : 8 * p.val + s < cfg0.N) :
    iblk0 V c 0 ⟨8 * p.val + s, h⟩ = tileA (V c main_arg3) p ⟨s, hs⟩ := by
  rw [left0]
  have hp : (⟨(8 * p.val + s) / 8, by omega⟩ : Fin 8) = p := Fin.ext (by show (8 * p.val + s) / 8 = p.val; omega)
  have hq : (⟨(8 * p.val + s) % 8, Nat.mod_lt _ (by decide)⟩ : Fin 8) = ⟨s, hs⟩ := Fin.ext (by show (8 * p.val + s) % 8 = s; omega)
  show tileA (V c main_arg3) ⟨(8 * p.val + s) / 8, _⟩ ⟨(8 * p.val + s) % 8, _⟩ = _
  rw [hp, hq]

/-- The right block there. -/
theorem rightAt (c : Dev nD) (p : Fin 8) (s : ℕ) (hs : s < 8) (h : 8 * p.val + s < cfg0.N) :
    iblk0 V c 1 ⟨8 * p.val + s, h⟩ = tileB (V c main_v0) ⟨s, hs⟩ := by
  rw [right0]
  have hq : (⟨(8 * p.val + s) % 8, Nat.mod_lt _ (by decide)⟩ : Fin 8) = ⟨s, hs⟩ := Fin.ext (by show (8 * p.val + s) % 8 = s; omega)
  show tileB (V c main_v0) ⟨(8 * p.val + s) % 8, _⟩ = _
  rw [hq]

/-- The running sum at equal points. -/
theorem accAtCongr (c : Dev nD) (n n' : ℕ) (e : n = n') (h : n < cfg0.N) (h' : n' < cfg0.N) : accAt0 V c n h = accAt0 V c n' h' := by
  subst e; rfl

/-! ## The running sum along a row block -/

/-- After the point `8 p + s` the running sum is row block `p`'s accumulator over the column tiles `0 … s`:
    at `s = 0` the sum is reset and gains the first tile's product, at each later `s` it gains one more product over
    what the point before left. -/
theorem accAt0_eq_accRow (c : Dev nD) (p : Fin 8) (s : ℕ) (hs : s < 8) (h : 8 * p.val + s < cfg0.N) :
    accAt0 V c (8 * p.val + s) h = accRow (V c main_arg3) (V c main_v0) p s hs := by
  induction s with
  | zero =>
    refine (accAt0_first V c ⟨8 * p.val + 0, h⟩ (by show (8 * p.val + 0) % 8 = 0; omega)).trans ?_
    rw [leftAt V c p 0 hs h, rightAt V c p 0 hs h, accRow_zero]
  | succ s ih =>
    refine (accAt0_next V c ⟨8 * p.val + (s + 1), h⟩ (by show ¬(8 * p.val + (s + 1)) % 8 = 0; omega)).trans ?_
    rw [leftAt V c p (s + 1) hs h, rightAt V c p (s + 1) hs h, accRow_succ]
    congr 1
    exact (accAtCongr V c _ _ (by show 8 * p.val + (s + 1) - 1 = 8 * p.val + s; omega) _ (Nat.lt_of_succ_lt h)).trans
      (ih (Nat.lt_of_succ_lt hs) (Nat.lt_of_succ_lt h))

/-! ## The whole product read at an index of a row block -/

/-- Entry `(1024 p + y₀, y₁)` of the blocked product is row block `p`'s full accumulator at `(y₀, y₁)`. -/
theorem KmmAt (A : Vec F S8192x8192 .f32) (B : Vec F S8192x128 .f32) (i : S8192x128.Idx) (p : Fin 8) (y : S1024x128.Idx)
    (h0 : (i 0).val = 1024 * p.val + (y 0).val) (h1 : (i 1).val = (y 1).val) :
    Kmm A B i = accRow A B p 7 (by decide) y := by
  have hy0 := idx2_lt0 y
  have hp : (⟨(i 0).val / 1024, by have := idx2_lt0 i; omega⟩ : Fin 8) = p := Fin.ext (by show (i 0).val / 1024 = p.val; omega)
  have hy : ix2 (n0 := 1024) (n1 := 128) ⟨(i 0).val % 1024, Nat.mod_lt _ (by decide)⟩ ⟨(i 1).val, idx2_lt1 i⟩ = y := by
    funext a
    apply Fin.ext
    match a with
    | ⟨0, _⟩ => show (i 0).val % 1024 = (y 0).val; omega
    | ⟨1, _⟩ => show (i 1).val = (y 1).val; exact h1
  show accRow A B ⟨(i 0).val / 1024, _⟩ 7 _ (ix2 (n0 := 1024) (n1 := 128) ⟨(i 0).val % 1024, _⟩ ⟨(i 1).val, _⟩) = _
  rw [hp, hy]

/-! ## What a flushing point writes back -/

/-- A point that writes the output block back has `t % 8 = 7`; what it writes is the full accumulator of row block
    `t / 8`, which is the block of `Kmm` at rows `1024 (t / 8) …`. -/
theorem flushed0_eq (c : Dev nD) (t : Fin cfg0.N) (hf : (cfg0.win 2).flush t = true) :
    (dat0 V c).flushed 2 t = ((cfg0.win 2).blk t).view.read (Elt F) (Kmm (V c main_arg3) (V c main_v0)) := by
  have h7 : t.val % 8 = 7 := (flush0_2 t).mp hf
  have hN := pointLt t
  obtain ⟨e0, e1⟩ := idxOut t
  show (cfg0.win 2).cut (grid0.coords t) ((dat0 V c).after 2 t) = _
  rw [after0_2]
  have hacc : accAt0 V c t.val t.isLt
      = accRow (V c main_arg3) (V c main_v0) ⟨t.val / 8, by omega⟩ 7 (by decide) :=
    (accAtCongr V c t.val (8 * (t.val / 8) + 7) (by omega) t.isLt (ltPoint (by omega))).trans
      (accAt0_eq_accRow V c ⟨t.val / 8, by omega⟩ 7 (by decide) (ltPoint (by omega)))
  rw [hacc]
  funext j
  show accRow (V c main_arg3) (V c main_v0) ⟨t.val / 8, _⟩ 7 _ j
    = Kmm (V c main_arg3) (V c main_v0) (((cfg0.win 2).blk t).view.emb j)
  refine (KmmAt _ _ _ ⟨t.val / 8, by omega⟩ j ?_ ?_).symm
  · show win0_2.index t (0 : Fin 2) * 1024 + 1 * (j 0).val = 1024 * (t.val / 8) + (j 0).val
    rw [e0]; omega
  · show win0_2.index t (1 : Fin 2) * 128 + 1 * (j 1).val = (j 1).val
    rw [e1]; omega

/-! ## The flushing points' blocks cover the array -/

/-- An index of the result array is in point `t`'s output block iff each coordinate is in the block's range. -/
theorem memOut (t : Fin cfg0.N) (i : S8192x128.Idx) :
    i ∈ ((cfg0.win 2).blk t).view.set
      ↔ ∀ a : Fin 2, win0_2.index t a * S1024x128.size a ≤ (i a).val ∧ (i a).val < win0_2.index t a * S1024x128.size a + S1024x128.size a := by
  show i ∈ ((View.whole main_v4).slice (win0_2.rect t)).set ↔ _
  rw [View.set_slice_whole, Rect.mem_set_unit]
  exact Iff.rfl

/-- Row `r` of the result array is in the block written back at the point `8 (r / 1024) + 7`. -/
theorem cover0 (i : S8192x128.Idx) :
    ∃ t : Fin cfg0.N, (cfg0.win 2).flush t = true ∧ i ∈ ((cfg0.win 2).blk t).view.set := by
  have hi0 := idx2_lt0 i
  have hi1 := idx2_lt1 i
  have hlt : 8 * ((i 0).val / 1024) + 7 < cfg0.N := ltPoint (by omega)
  refine ⟨⟨8 * ((i 0).val / 1024) + 7, hlt⟩, (flush0_2 _).mpr (by show (8 * ((i 0).val / 1024) + 7) % 8 = 7; omega), ?_⟩
  obtain ⟨e0, e1⟩ := idxOut ⟨8 * ((i 0).val / 1024) + 7, hlt⟩
  have e0' : win0_2.index ⟨8 * ((i 0).val / 1024) + 7, hlt⟩ (0 : Fin 2) = (8 * ((i 0).val / 1024) + 7) / 8 := e0
  rw [memOut]
  intro a
  match a with
  | ⟨0, _⟩ =>
    show win0_2.index _ (0 : Fin 2) * 1024 ≤ (i 0).val ∧ (i 0).val < win0_2.index _ (0 : Fin 2) * 1024 + 1024
    rw [e0']; omega
  | ⟨1, _⟩ =>
    show win0_2.index _ (1 : Fin 2) * 128 ≤ (i 1).val ∧ (i 1).val < win0_2.index _ (1 : Fin 2) * 128 + 128
    rw [e1]; omega

/-! ## The output array after the region -/

/-- The output array after the region is the blocked product of the two operand arrays as the region finds them. -/
theorem arrAt0_out (c : Dev nD) : (dat0 V c).arrAt 2 cfg0.N = Kmm (V c main_arg3) (V c main_v0) :=
  (dat0 V c).arrAt_eq_of_cover 2 _ (flushed0_eq V c) cover0

end Cert.KernelIdeal.Mm

end
-- ==== Proof.Mm.Array1.lean ====
/-
  Region 0's output array after the run, as one function of its two operand arrays. Point `t` of the 8 x 8 grid is
  row block `t / 8` and column tile `t % 8`. The left window's block at `t` is tile `(t / 8, t % 8)` of the
  8192 x 8192 operand, the right window's block is row tile `t % 8` of the 8192 x 128 operand, and the output window's
  block is rows `1024 (t / 8) …` of the 8192 x 128 result. Along a row block `p` the running sum after the point
  `8 p + s` is the accumulator `accRow … p s` of the blocked product; the output block is written back only at
  the points `8 p + 7`, where the running sum is the full accumulator, that is block `p` of `Kmm`. The eight
  written blocks cover the array (row `r` lies in the block of the point `8 (r / 1024) + 7`), so the array ends
  holding `Kmm` of the operands.
-/
import proofs.«104640_j47047071760998_1_alg».proof.Proof.Mm.Region1
import proofs.«104640_j47047071760998_1_alg».proof.Proof.Mm.Defs
import Idealize.ShloMosaic.Lib.Pipeline.Value
import Idealize.ShloMosaic.Lib.ValueIdx

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The printed index maps over the grid -/

/-- The left window's block index at point `t` is `(t / 8, t % 8)`. -/
theorem idxLeft_r1 : ∀ t : Fin cfg1.N, win1_0.index t (0 : Fin 2) = t.val / 8 ∧ win1_0.index t (1 : Fin 2) = t.val % 8 :=
  (by decide +kernel : ∀ t : Fin grid1.N, _)

/-- The right window's block index at point `t` is `(t % 8, 0)`. -/
theorem idxRight_r1 : ∀ t : Fin cfg1.N, win1_1.index t (0 : Fin 2) = t.val % 8 ∧ win1_1.index t (1 : Fin 2) = 0 :=
  (by decide +kernel : ∀ t : Fin grid1.N, _)

/-- The output window's block index at point `t` is `(t / 8, 0)`. -/
theorem idxOut_r1 : ∀ t : Fin cfg1.N, win1_2.index t (0 : Fin 2) = t.val / 8 ∧ win1_2.index t (1 : Fin 2) = 0 :=
  (by decide +kernel : ∀ t : Fin grid1.N, _)

/-- The grid has 64 points. -/
theorem pointLt_r1 (t : Fin cfg1.N) : t.val < 64 := lt_of_lt_of_eq t.isLt (show cfg1.N = 64 from N_1)

/-- A natural below 64 is a point of the grid. -/
theorem ltPoint_r1 {n : ℕ} (h : n < 64) : n < cfg1.N := lt_of_lt_of_eq h (show cfg1.N = 64 from N_1).symm

/-! ## The input blocks as tiles -/

/-- The left window's block at point `t` is tile `(t / 8, t % 8)` of the left operand: an element of the block sits
    in the array at block index times 1024 plus its own coordinate, on both axes. -/
theorem left1 (c : Dev nD) (t : Fin cfg1.N) :
    iblk1 V c 0 t = tileA (V c main_arg2) ⟨t.val / 8, by have := pointLt_r1 t; omega⟩ ⟨t.val % 8, Nat.mod_lt _ (by decide)⟩ := by
  obtain ⟨e0, e1⟩ := idxLeft_r1 t
  funext y
  show V c main_arg2 (((cfg1.win 0).blk t).view.emb y) = V c main_arg2 _
  congr 1
  funext a
  apply Fin.ext
  match a with
  | ⟨0, _⟩ => show win1_0.index t (0 : Fin 2) * 1024 + 1 * (y 0).val = 1024 * (t.val / 8) + (y 0).val; rw [e0]; omega
  | ⟨1, _⟩ => show win1_0.index t (1 : Fin 2) * 1024 + 1 * (y 1).val = 1024 * (t.val % 8) + (y 1).val; rw [e1]; omega

/-- The right window's block at point `t` is row tile `t % 8` of the right operand. -/
theorem right1 (c : Dev nD) (t : Fin cfg1.N) :
    iblk1 V c 1 t = tileB (V c main_v7) ⟨t.val % 8, Nat.mod_lt _ (by decide)⟩ := by
  obtain ⟨e0, e1⟩ := idxRight_r1 t
  funext y
  show V c main_v7 (((cfg1.win 1).blk t).view.emb y) = V c main_v7 _
  congr 1
  funext a
  apply Fin.ext
  match a with
  | ⟨0, _⟩ => show win1_1.index t (0 : Fin 2) * 1024 + 1 * (y 0).val = 1024 * (t.val % 8) + (y 0).val; rw [e0]; omega
  | ⟨1, _⟩ => show win1_1.index t (1 : Fin 2) * 128 + 1 * (y 1).val = (y 1).val; rw [e1]; omega

/-- The left block at the point of row block `p`, column tile `s`. -/
theorem leftAt_r1 (c : Dev nD) (p : Fin 8) (s : ℕ) (hs : s < 8) (h : 8 * p.val + s < cfg1.N) :
    iblk1 V c 0 ⟨8 * p.val + s, h⟩ = tileA (V c main_arg2) p ⟨s, hs⟩ := by
  rw [left1]
  have hp : (⟨(8 * p.val + s) / 8, by omega⟩ : Fin 8) = p := Fin.ext (by show (8 * p.val + s) / 8 = p.val; omega)
  have hq : (⟨(8 * p.val + s) % 8, Nat.mod_lt _ (by decide)⟩ : Fin 8) = ⟨s, hs⟩ := Fin.ext (by show (8 * p.val + s) % 8 = s; omega)
  show tileA (V c main_arg2) ⟨(8 * p.val + s) / 8, _⟩ ⟨(8 * p.val + s) % 8, _⟩ = _
  rw [hp, hq]

/-- The right block there. -/
theorem rightAt_r1 (c : Dev nD) (p : Fin 8) (s : ℕ) (hs : s < 8) (h : 8 * p.val + s < cfg1.N) :
    iblk1 V c 1 ⟨8 * p.val + s, h⟩ = tileB (V c main_v7) ⟨s, hs⟩ := by
  rw [right1]
  have hq : (⟨(8 * p.val + s) % 8, Nat.mod_lt _ (by decide)⟩ : Fin 8) = ⟨s, hs⟩ := Fin.ext (by show (8 * p.val + s) % 8 = s; omega)
  show tileB (V c main_v7) ⟨(8 * p.val + s) % 8, _⟩ = _
  rw [hq]

/-- The running sum at equal points. -/
theorem accAtCongr_r1 (c : Dev nD) (n n' : ℕ) (e : n = n') (h : n < cfg1.N) (h' : n' < cfg1.N) : accAt1 V c n h = accAt1 V c n' h' := by
  subst e; rfl

/-! ## The running sum along a row block -/

/-- After the point `8 p + s` the running sum is row block `p`'s accumulator over the column tiles `0 … s`:
    at `s = 0` the sum is reset and gains the first tile's product, at each later `s` it gains one more product over
    what the point before left. -/
theorem accAt1_eq_accRow (c : Dev nD) (p : Fin 8) (s : ℕ) (hs : s < 8) (h : 8 * p.val + s < cfg1.N) :
    accAt1 V c (8 * p.val + s) h = accRow (V c main_arg2) (V c main_v7) p s hs := by
  induction s with
  | zero =>
    refine (accAt1_first V c ⟨8 * p.val + 0, h⟩ (by show (8 * p.val + 0) % 8 = 0; omega)).trans ?_
    rw [leftAt_r1 V c p 0 hs h, rightAt_r1 V c p 0 hs h, accRow_zero]
  | succ s ih =>
    refine (accAt1_next V c ⟨8 * p.val + (s + 1), h⟩ (by show ¬(8 * p.val + (s + 1)) % 8 = 0; omega)).trans ?_
    rw [leftAt_r1 V c p (s + 1) hs h, rightAt_r1 V c p (s + 1) hs h, accRow_succ]
    congr 1
    exact (accAtCongr_r1 V c _ _ (by show 8 * p.val + (s + 1) - 1 = 8 * p.val + s; omega) _ (Nat.lt_of_succ_lt h)).trans
      (ih (Nat.lt_of_succ_lt hs) (Nat.lt_of_succ_lt h))

/-! ## The whole product read at an index of a row block -/

/-- Entry `(1024 p + y₀, y₁)` of the blocked product is row block `p`'s full accumulator at `(y₀, y₁)`. -/
theorem KmmAt_r1 (A : Vec F S8192x8192 .f32) (B : Vec F S8192x128 .f32) (i : S8192x128.Idx) (p : Fin 8) (y : S1024x128.Idx)
    (h0 : (i 0).val = 1024 * p.val + (y 0).val) (h1 : (i 1).val = (y 1).val) :
    Kmm A B i = accRow A B p 7 (by decide) y := by
  have hy0 := idx2_lt0 y
  have hp : (⟨(i 0).val / 1024, by have := idx2_lt0 i; omega⟩ : Fin 8) = p := Fin.ext (by show (i 0).val / 1024 = p.val; omega)
  have hy : ix2 (n0 := 1024) (n1 := 128) ⟨(i 0).val % 1024, Nat.mod_lt _ (by decide)⟩ ⟨(i 1).val, idx2_lt1 i⟩ = y := by
    funext a
    apply Fin.ext
    match a with
    | ⟨0, _⟩ => show (i 0).val % 1024 = (y 0).val; omega
    | ⟨1, _⟩ => show (i 1).val = (y 1).val; exact h1
  show accRow A B ⟨(i 0).val / 1024, _⟩ 7 _ (ix2 (n0 := 1024) (n1 := 128) ⟨(i 0).val % 1024, _⟩ ⟨(i 1).val, _⟩) = _
  rw [hp, hy]

/-! ## What a flushing point writes back -/

/-- A point that writes the output block back has `t % 8 = 7`; what it writes is the full accumulator of row block
    `t / 8`, which is the block of `Kmm` at rows `1024 (t / 8) …`. -/
theorem flushed1_eq (c : Dev nD) (t : Fin cfg1.N) (hf : (cfg1.win 2).flush t = true) :
    (dat1 V c).flushed 2 t = ((cfg1.win 2).blk t).view.read (Elt F) (Kmm (V c main_arg2) (V c main_v7)) := by
  have h7 : t.val % 8 = 7 := (flush1_2 t).mp hf
  have hN := pointLt_r1 t
  obtain ⟨e0, e1⟩ := idxOut_r1 t
  show (cfg1.win 2).cut (grid1.coords t) ((dat1 V c).after 2 t) = _
  rw [after1_2]
  have hacc : accAt1 V c t.val t.isLt
      = accRow (V c main_arg2) (V c main_v7) ⟨t.val / 8, by omega⟩ 7 (by decide) :=
    (accAtCongr_r1 V c t.val (8 * (t.val / 8) + 7) (by omega) t.isLt (ltPoint_r1 (by omega))).trans
      (accAt1_eq_accRow V c ⟨t.val / 8, by omega⟩ 7 (by decide) (ltPoint_r1 (by omega)))
  rw [hacc]
  funext j
  show accRow (V c main_arg2) (V c main_v7) ⟨t.val / 8, _⟩ 7 _ j
    = Kmm (V c main_arg2) (V c main_v7) (((cfg1.win 2).blk t).view.emb j)
  refine (KmmAt_r1 _ _ _ ⟨t.val / 8, by omega⟩ j ?_ ?_).symm
  · show win1_2.index t (0 : Fin 2) * 1024 + 1 * (j 0).val = 1024 * (t.val / 8) + (j 0).val
    rw [e0]; omega
  · show win1_2.index t (1 : Fin 2) * 128 + 1 * (j 1).val = (j 1).val
    rw [e1]; omega

/-! ## The flushing points' blocks cover the array -/

/-- An index of the result array is in point `t`'s output block iff each coordinate is in the block's range. -/
theorem memOut_r1 (t : Fin cfg1.N) (i : S8192x128.Idx) :
    i ∈ ((cfg1.win 2).blk t).view.set
      ↔ ∀ a : Fin 2, win1_2.index t a * S1024x128.size a ≤ (i a).val ∧ (i a).val < win1_2.index t a * S1024x128.size a + S1024x128.size a := by
  show i ∈ ((View.whole main_v8).slice (win1_2.rect t)).set ↔ _
  rw [View.set_slice_whole, Rect.mem_set_unit]
  exact Iff.rfl

/-- Row `r` of the result array is in the block written back at the point `8 (r / 1024) + 7`. -/
theorem cover1 (i : S8192x128.Idx) :
    ∃ t : Fin cfg1.N, (cfg1.win 2).flush t = true ∧ i ∈ ((cfg1.win 2).blk t).view.set := by
  have hi0 := idx2_lt0 i
  have hi1 := idx2_lt1 i
  have hlt : 8 * ((i 0).val / 1024) + 7 < cfg1.N := ltPoint_r1 (by omega)
  refine ⟨⟨8 * ((i 0).val / 1024) + 7, hlt⟩, (flush1_2 _).mpr (by show (8 * ((i 0).val / 1024) + 7) % 8 = 7; omega), ?_⟩
  obtain ⟨e0, e1⟩ := idxOut_r1 ⟨8 * ((i 0).val / 1024) + 7, hlt⟩
  have e0' : win1_2.index ⟨8 * ((i 0).val / 1024) + 7, hlt⟩ (0 : Fin 2) = (8 * ((i 0).val / 1024) + 7) / 8 := e0
  rw [memOut_r1]
  intro a
  match a with
  | ⟨0, _⟩ =>
    show win1_2.index _ (0 : Fin 2) * 1024 ≤ (i 0).val ∧ (i 0).val < win1_2.index _ (0 : Fin 2) * 1024 + 1024
    rw [e0']; omega
  | ⟨1, _⟩ =>
    show win1_2.index _ (1 : Fin 2) * 128 ≤ (i 1).val ∧ (i 1).val < win1_2.index _ (1 : Fin 2) * 128 + 128
    rw [e1]; omega

/-! ## The output array after the region -/

/-- The output array after the region is the blocked product of the two operand arrays as the region finds them. -/
theorem arrAt1_out (c : Dev nD) : (dat1 V c).arrAt 2 cfg1.N = Kmm (V c main_arg2) (V c main_v7) :=
  (dat1 V c).arrAt_eq_of_cover 2 _ (flushed1_eq V c) cover1

end Cert.KernelIdeal.Mm

end
-- ==== Proof.Mm.Result.lean ====
/-
  The kernel program's result as one term of its seven argument arrays: the host operations in program order, with each
  of the two blocked matrix products read as `Kmm`. The first product multiplies `x3` into the product of `x0` with
  `x4`; that is scaled row by row by the column sums of `x1 * x5 * x1`; the second product multiplies `x2` into the
  scaled array; and the row vector `x6` is added to every row.
-/
import proofs.«104640_j47047071760998_1_alg».proof.Proof.Mm.Defs
import proofs.«104640_j47047071760998_1_alg».proof.Proof.Gen.KernelIdeal

noncomputable section

namespace Cert.KernelIdeal.Mm

open Cert.KernelIdeal Cert.KernelIdeal.Gen Idealize.ShloMosaic

variable {F : FTy → Type} [FloatOps F]

/-- The program's result from its arguments. -/
def result (x0 : Vec F S8192x128 .f32) (x1 : Vec F S3x8192 .f32) (x2 x3 : Vec F S8192x8192 .f32)
    (x4 : Vec F S128x128 .f32) (x5 : Vec F S3x8192 .f32) (x6 : Vec F S128 .f32) : Vec F S8192x128 .f32 :=
  addf (Kmm x2 (mulf (broadcastInDim S8192x128 ![0, 1] bcast_S8192x1_S8192x128_0_1 (broadcastInDim S8192x1 ![0] bcast_S8192_S8192x1_0 (Host.reduceAdd (mulf (mulf x1 x5) x1) (constant S_ .f32 0x00000000#32) reducesTo_S3x8192_S8192_d0 h_S_))) (Kmm x3 (Host.dotGeneral dot_S8192x128_S128x128_S8192x128_1_0_0_1_n_n none x0 x4))))
    (broadcastInDim S8192x128 ![0, 1] bcast_S1x128_S8192x128_0_1 (broadcastInDim S1x128 ![1] bcast_S128_S1x128_1 x6))

end Cert.KernelIdeal.Mm

end
-- ==== Proof.Mm.Final.lean ====
/-
  The program's result as one term of the launch arrays. Reading the last valuation back through the items: the last
  host stretch adds the bias row, broadcast over the rows, to region 1's output array; that array is the blocked
  product `Kmm` of `main_arg2` with the second host stretch's product of the broadcast column scale and region 0's
  output array; and that is `Kmm` of `main_arg3` with the first host stretch's product `x W`. No item writes an
  argument array, so each operand that is an argument is read at its launch contents.
-/
import proofs.«104640_j47047071760998_1_alg».proof.Proof.Gen.KernelIdeal.Launch
import proofs.«104640_j47047071760998_1_alg».proof.Proof.Gen.KernelIdeal.Skeleton
import proofs.«104640_j47047071760998_1_alg».proof.Proof.Gen.KernelIdeal.Points
import proofs.«104640_j47047071760998_1_alg».proof.Proof.Mm.Regs
import proofs.«104640_j47047071760998_1_alg».proof.Proof.Mm.Array0
import proofs.«104640_j47047071760998_1_alg».proof.Proof.Mm.Array1
import proofs.«104640_j47047071760998_1_alg».proof.Proof.Mm.Result
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer the first host stretch does not write holds its launch contents at region 0's entry. -/
theorem V1_launch (c : Dev nD) (r : Ref sig .tc) (h : r ∉ Gen.hostOps0_W) : Gen.V1 m c r = m ((c : Thread nD τ).loc r) :=
  (Gen.V1_of m c r h).trans rfl

/-- A buffer the second host stretch does not write is as region 0 left it. -/
theorem U3_keep (c : Dev nD) (r : Ref sig .tc) (h : r ∉ Gen.hostOps1_W) : U3 m c r = U2 m c r :=
  StableHlo.after_of_writes_sub hostOps1 _ Gen.hostOps1_writes h

/-- The first host stretch's product. -/
theorem V1_v0 (c : Dev nD) :
    Gen.V1 m c main_v0 = Host.dotGeneral dot_S8192x128_S128x128_S8192x128_1_0_0_1_n_n none (m ((c : Thread nD τ).loc main_arg0)) (m ((c : Thread nD τ).loc main_arg4)) := by
  show StableHlo.after hostOps0 (Gen.V0 m c) (Proc.devRef .tc main_v0) = _
  dsimp only [hostOps0]
  after_results

/-- The first host stretch's column scale: the sum over the three levels of `d * filt * d`. -/
theorem V1_v3 (c : Dev nD) :
    Gen.V1 m c main_v3 = Host.reduceAdd (mulf (mulf (m ((c : Thread nD τ).loc main_arg1)) (m ((c : Thread nD τ).loc main_arg5))) (m ((c : Thread nD τ).loc main_arg1)))
      (constant S_ .f32 0x00000000#32) reducesTo_S3x8192_S8192_d0 h_S_ := by
  show StableHlo.after hostOps0 (Gen.V0 m c) (Proc.devRef .tc main_v3) = _
  dsimp only [hostOps0]
  after_results

/-- The second host stretch's product of the broadcast scale with region 0's output. -/
theorem U3_v7 (c : Dev nD) :
    U3 m c main_v7 = mulf (broadcastInDim S8192x128 ![0, 1] bcast_S8192x1_S8192x128_0_1 (broadcastInDim S8192x1 ![0] bcast_S8192_S8192x1_0 (U2 m c main_v3))) (U2 m c main_v4) := by
  show StableHlo.after hostOps1 (U2 m c) (Proc.devRef .tc main_v7) = _
  dsimp only [hostOps1]
  after_results

/-- The last host stretch's sum of region 1's output with the broadcast bias. -/
theorem U5_v11 (c : Dev nD) :
    U5 m c main_v11 = addf (U4 m c main_v8) (broadcastInDim S8192x128 ![0, 1] bcast_S1x128_S8192x128_0_1 (broadcastInDim S1x128 ![1] bcast_S128_S1x128_1 (U4 m c main_arg6))) := by
  show StableHlo.after hostOps2 (U4 m c) (Proc.devRef .tc main_v11) = _
  dsimp only [hostOps2]
  after_results

/-- Region 0's output array: the blocked product of `main_arg3` with `x W`. -/
theorem out0_eq (c : Dev nD) :
    out0 m c = Kmm (m ((c : Thread nD τ).loc main_arg3))
      (Host.dotGeneral dot_S8192x128_S128x128_S8192x128_1_0_0_1_n_n none (m ((c : Thread nD τ).loc main_arg0)) (m ((c : Thread nD τ).loc main_arg4))) := by
  unfold out0
  rw [arrAt0_out]
  show Kmm (Gen.V1 m c main_arg3) (Gen.V1 m c main_v0) = _
  rw [V1_v0, V1_launch m c main_arg3 (by decide)]

/-- Region 1's output array: the blocked product of `main_arg2` with the scaled region-0 output. -/
theorem out1_eq (c : Dev nD) :
    out1 m c = Kmm (m ((c : Thread nD τ).loc main_arg2)) (U3 m c main_v7) := by
  unfold out1
  rw [arrAt1_out]
  show Kmm (U3 m c main_arg2) (U3 m c main_v7) = _
  rw [U3_keep m c main_arg2 (by decide), U2_of_ne m c main_arg2 (by decide), V1_launch m c main_arg2 (by decide)]

/-- The result buffer at the end is the `result` term of the seven launch arrays. -/
theorem U5_result (c : Dev nD) :
    U5 m c main_v11 = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  rw [U5_v11, U4_out, out1_eq, U3_v7, U2_out, out0_eq,
    U2_of_ne m c main_v3 (by decide), V1_v3,
    U4_of_ne m c main_arg6 (by decide), U3_keep m c main_arg6 (by decide), U2_of_ne m c main_arg6 (by decide), V1_launch m c main_arg6 (by decide)]
  rfl

end Cert.KernelIdeal.Mm

end
-- ==== Proof.Val.BlockSum.lean ====
/-
  Regrouping a sum over 8192 consecutive indices into 8 blocks of 1024: the index `k` is written
  `1024 s + j` with `s < 8` and `j < 1024`. The pairing `(s, j) ↦ j + 1024 s` is a bijection of
  `Fin 8 × Fin 1024` with `Fin 8192`, a sum is invariant under a bijection of its index type, and a
  sum over a product type is an iterated sum. Only commutativity and associativity of `+` are used.
-/
import Mathlib.Algebra.BigOperators.Group.Finset.Defs
import Mathlib.Data.Fintype.BigOperators
import Mathlib.Logic.Equiv.Fin.Basic

namespace Cert.KernelIdeal.Val

open scoped BigOperators

/-- A sum over `Fin 8192` is the sum, over the 8 blocks `s`, of the sums over the 1024 offsets `j` of the
    terms at `1024 s + j`. -/
theorem sum_blocks {β : Type*} [AddCommMonoid β] (f : Fin 8192 → β) :
    ∑ k : Fin 8192, f k
      = ∑ s : Fin 8, ∑ j : Fin 1024,
          f ⟨1024 * s.val + j.val, by have := s.isLt; have := j.isLt; omega⟩ := by
  have h := (Equiv.sum_comp (finProdFinEquiv (m := 8) (n := 1024)) f).symm
  rw [Fintype.sum_prod_type] at h
  rw [h]
  refine Finset.sum_congr rfl fun s _ => Finset.sum_congr rfl fun j _ => ?_
  congr 1
  apply Fin.ext
  show j.val + 1024 * s.val = 1024 * s.val + j.val
  omega

end Cert.KernelIdeal.Val
-- ==== Proof.Val.KmmIdeal.lean ====
/-
  The blocked matrix product `Mm.Kmm A B` equals, at the ideal values, the one whole contraction of `A` with `B`.
  An entry `(r, c)` of the whole product is the sum over `k < 8192` of `A (r, k) * B (k, c)`. An entry of the blocked
  product is the accumulator of row block `r / 1024` at `(r % 1024, c)`: it starts at `0` and step `s` adds the sum over
  `j < 1024` of `A (r, 1024 s + j) * B (1024 s + j, c)`. The two agree because a sum over `k < 8192` regroups into
  8 blocks of 1024 terms; only that `0 + x = x` and that `+` is associative and commutative are used, so no entry needs
  to be finite.
-/
import proofs.«104640_j47047071760998_1_alg».proof.Proof.Mm.Defs
import proofs.«104640_j47047071760998_1_alg».proof.Proof.Gen.ReferenceIdeal
import proofs.«104640_j47047071760998_1_alg».proof.Proof.Val.BlockSum
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen Cert.KernelIdeal.Mm
open scoped BigOperators

/-! ## The tile product's operand indices

The tile product contracts axis 1 of its left operand with axis 0 of its right operand: at output index `i` and
contraction position `q` the left operand is read at `(i 0, q)` and the right operand at `(q, i 1)`. -/

theorem tile_lhs_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem tile_lhs_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem tile_rhs_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem tile_rhs_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-! ## The two stored values at an entry -/

/-- The first stored value is the zero block. -/
theorem pay1_apply (a : Fin 1024) (b : Fin 128) : k0_pay1 (F := Ideal) (ix2 a b) = 0 := by
  unfold k0_pay1
  simp only [shapeCast_self]
  exact Ideal.ofBits_zero_f32

/-- The second stored value at `(a, b)`: the accumulator there plus the sum over `k < 1024` of the left tile at `(a, k)`
    times the right tile at `(k, b)`. The narrowing of the operands and the casts between equal shapes are identities at
    the ideal values. -/
theorem pay2_apply (x0 : Vec Ideal S1024x1024 .f32) (x1 acc : Vec Ideal S1024x128 .f32) (a : Fin 1024) (b : Fin 128) :
    k0_pay2 (F := Ideal) x0 x1 acc (ix2 a b) = acc (ix2 a b) + ∑ k : Fin 1024, x0 (ix2 a k) * x1 (ix2 k b) := by
  unfold k0_pay2
  simp only [shapeCast_self, matmul]
  rw [addf_apply, Ideal.matmul_constant_zero_apply, ← Equiv.sum_comp (contrEquiv1 dot_S1024x1024_S1024x128_S1024x128_1_0_0_1_n_n 1024 rfl rfl).symm]
  refine congrArg (_ + ·) (Finset.sum_congr rfl fun k _ => ?_)
  have hk := contrEquiv1_symm_val dot_S1024x1024_S1024x128_S1024x128_1_0_0_1_n_n 1024 rfl rfl k
  have el : dot_S1024x1024_S1024x128_S1024x128_1_0_0_1_n_n.lhsIdx (ix2 a b) ((contrEquiv1 dot_S1024x1024_S1024x128_S1024x128_1_0_0_1_n_n 1024 rfl rfl).symm k) = ix2 a k := funext fun c => Fin.ext (by
    match c with
    | ⟨0, _⟩ => exact tile_lhs_0 _ _
    | ⟨1, _⟩ => exact (tile_lhs_1 _ _).trans hk)
  have er : dot_S1024x1024_S1024x128_S1024x128_1_0_0_1_n_n.rhsIdx (ix2 a b) ((contrEquiv1 dot_S1024x1024_S1024x128_S1024x128_1_0_0_1_n_n 1024 rfl rfl).symm k) = ix2 k b := funext fun c => Fin.ext (by
    match c with
    | ⟨0, _⟩ => exact (tile_rhs_0 _ _).trans hk
    | ⟨1, _⟩ => exact tile_rhs_1 _ _)
  rw [truncf_apply, truncf_apply, el, er]

/-! ## A row block's accumulator at an entry -/

/-- Block `t`'s share of entry `(r, c)` of the product: the sum over the 1024 offsets `k` of
    `A (r, 1024 t + k) * B (1024 t + k, c)`. -/
def blockTerm (A : Vec Ideal S8192x8192 .f32) (B : Vec Ideal S8192x128 .f32) (r : Fin 8192) (c : Fin 128)
    (t : ℕ) (ht : t < 8) : Ideal .f32 :=
  ∑ k : Fin 1024, A (ix2 r ⟨1024 * t + k.val, by have := k.isLt; omega⟩)
    * B (ix2 ⟨1024 * t + k.val, by have := k.isLt; omega⟩ c)

/-- The product of tile `(p, s)` of `A` with row tile `s` of `B` at `(a, b)` is block `s`'s share of entry
    `(1024 p + a, b)`: a tile reads its array at the tile's origin plus the position inside the tile. -/
theorem tile_term (A : Vec Ideal S8192x8192 .f32) (B : Vec Ideal S8192x128 .f32) (p : Fin 8) (a : Fin 1024)
    (b : Fin 128) (r : Fin 8192) (hr : r.val = 1024 * p.val + a.val) (s : ℕ) (h : s < 8) :
    ∑ k : Fin 1024, tileA A p ⟨s, h⟩ (ix2 a k) * tileB B ⟨s, h⟩ (ix2 k b) = blockTerm A B r b s h := by
  obtain ⟨rv, rlt⟩ := r
  change rv = 1024 * p.val + a.val at hr
  subst hr
  rfl

/-- Row block `p`'s accumulator after the column tiles `0 … s`, at `(a, b)`: the sum of the shares of blocks
    `0 … s` of entry `(1024 p + a, b)`. By induction on `s`: the first step adds block 0's share to the zero block,
    each later step adds one more share. -/
theorem accRow_apply (A : Vec Ideal S8192x8192 .f32) (B : Vec Ideal S8192x128 .f32) (p : Fin 8) (a : Fin 1024)
    (b : Fin 128) (r : Fin 8192) (hr : r.val = 1024 * p.val + a.val) :
    ∀ (s : ℕ) (h : s < 8), accRow (F := Ideal) A B p s h (ix2 a b)
      = ∑ t : Fin (s + 1), blockTerm A B r b t.val (by have := t.isLt; omega)
  | 0, h => by
    rw [accRow_zero, pay2_apply, pay1_apply, zero_add, tile_term A B p a b r hr 0 h, Fin.sum_univ_one]
    rfl
  | s + 1, h => by
    rw [Fin.sum_univ_castSucc, accRow_succ, pay2_apply, accRow_apply A B p a b r hr s (Nat.lt_of_succ_lt h),
      tile_term A B p a b r hr (s + 1) h]
    rfl

/-- An entry of the blocked product is the sum of the 8 blocks' shares. -/
theorem Kmm_apply (A : Vec Ideal S8192x8192 .f32) (B : Vec Ideal S8192x128 .f32) (r : Fin 8192) (c : Fin 128) :
    Kmm (F := Ideal) A B (ix2 r c) = ∑ t : Fin 8, blockTerm A B r c t.val t.isLt :=
  accRow_apply A B ⟨r.val / 1024, by have := r.isLt; omega⟩ ⟨r.val % 1024, Nat.mod_lt _ (by decide)⟩ c r
    (by show r.val = 1024 * (r.val / 1024) + r.val % 1024; omega) 7 (by decide)

/-! ## The whole product's operand indices

The whole product contracts axis 1 of `A` with axis 0 of `B` in the same way: at output index `i` and contraction
position `q` it reads `A` at `(i 0, q)` and `B` at `(q, i 1)`. -/

theorem whole_lhs_0 (i : Cert.ReferenceIdeal.S8192x128.Idx) (q : Cert.ReferenceIdeal.dot_S8192x8192_S8192x128_S8192x128_1_0_0_1_n_n.contr.Idx) :
    (Cert.ReferenceIdeal.dot_S8192x8192_S8192x128_S8192x128_1_0_0_1_n_n.lhsIdx i q 0).val = (i 0).val := by
  unfold DotDims.lhsIdx
  rw [dif_neg (show ¬(0 : Fin Cert.ReferenceIdeal.S8192x8192.rank) ∈ Cert.ReferenceIdeal.dot_S8192x8192_S8192x128_S8192x128_1_0_0_1_n_n.lhsBatch by decide), dif_pos (show (0 : Fin Cert.ReferenceIdeal.S8192x8192.rank) ∈ Cert.ReferenceIdeal.dot_S8192x8192_S8192x128_S8192x128_1_0_0_1_n_n.lhsNonContracting by decide)]
  rfl
theorem whole_lhs_1 (i : Cert.ReferenceIdeal.S8192x128.Idx) (q : Cert.ReferenceIdeal.dot_S8192x8192_S8192x128_S8192x128_1_0_0_1_n_n.contr.Idx) :
    (Cert.ReferenceIdeal.dot_S8192x8192_S8192x128_S8192x128_1_0_0_1_n_n.lhsIdx i q 1).val = (q ⟨0, by decide⟩).val :=
  Cert.ReferenceIdeal.dot_S8192x8192_S8192x128_S8192x128_1_0_0_1_n_n.lhsIdx_val_of_single rfl i q
theorem whole_rhs_0 (i : Cert.ReferenceIdeal.S8192x128.Idx) (q : Cert.ReferenceIdeal.dot_S8192x8192_S8192x128_S8192x128_1_0_0_1_n_n.contr.Idx) :
    (Cert.ReferenceIdeal.dot_S8192x8192_S8192x128_S8192x128_1_0_0_1_n_n.rhsIdx i q 0).val = (q ⟨0, by decide⟩).val :=
  Cert.ReferenceIdeal.dot_S8192x8192_S8192x128_S8192x128_1_0_0_1_n_n.rhsIdx_val_of_single rfl i q
theorem whole_rhs_1 (i : Cert.ReferenceIdeal.S8192x128.Idx) (q : Cert.ReferenceIdeal.dot_S8192x8192_S8192x128_S8192x128_1_0_0_1_n_n.contr.Idx) :
    (Cert.ReferenceIdeal.dot_S8192x8192_S8192x128_S8192x128_1_0_0_1_n_n.rhsIdx i q 1).val = (i 1).val := by
  unfold DotDims.rhsIdx
  rw [dif_neg (show ¬(1 : Fin Cert.ReferenceIdeal.S8192x128.rank) ∈ Cert.ReferenceIdeal.dot_S8192x8192_S8192x128_S8192x128_1_0_0_1_n_n.rhsBatch by decide), dif_pos (show (1 : Fin Cert.ReferenceIdeal.S8192x128.rank) ∈ Cert.ReferenceIdeal.dot_S8192x8192_S8192x128_S8192x128_1_0_0_1_n_n.rhsNonContracting by decide)]
  rfl

/-- An entry `(r, c)` of the whole product is the sum over `k < 8192` of `A (r, k) * B (k, c)`. -/
theorem whole_apply (A : Vec Ideal S8192x8192 .f32) (B : Vec Ideal S8192x128 .f32) (r : Fin 8192) (c : Fin 128) :
    Host.dotGeneral (F := Ideal) (φ₁ := .f32) (φ₂ := .f32) Cert.ReferenceIdeal.dot_S8192x8192_S8192x128_S8192x128_1_0_0_1_n_n none A B (ix2 r c) = ∑ k : Fin 8192, A (ix2 r k) * B (ix2 k c) := by
  simp only [Host.dotGeneral]
  rw [Ideal.dotGeneral_apply, ← Equiv.sum_comp (contrEquiv1 Cert.ReferenceIdeal.dot_S8192x8192_S8192x128_S8192x128_1_0_0_1_n_n 8192 rfl rfl).symm]
  refine Finset.sum_congr rfl fun k _ => ?_
  have hk := contrEquiv1_symm_val Cert.ReferenceIdeal.dot_S8192x8192_S8192x128_S8192x128_1_0_0_1_n_n 8192 rfl rfl k
  have el : Cert.ReferenceIdeal.dot_S8192x8192_S8192x128_S8192x128_1_0_0_1_n_n.lhsIdx (ix2 r c) ((contrEquiv1 Cert.ReferenceIdeal.dot_S8192x8192_S8192x128_S8192x128_1_0_0_1_n_n 8192 rfl rfl).symm k) = ix2 r k := funext fun d => Fin.ext (by
    match d with
    | ⟨0, _⟩ => exact whole_lhs_0 _ _
    | ⟨1, _⟩ => exact (whole_lhs_1 _ _).trans hk)
  have er : Cert.ReferenceIdeal.dot_S8192x8192_S8192x128_S8192x128_1_0_0_1_n_n.rhsIdx (ix2 r c) ((contrEquiv1 Cert.ReferenceIdeal.dot_S8192x8192_S8192x128_S8192x128_1_0_0_1_n_n 8192 rfl rfl).symm k) = ix2 k c := funext fun d => Fin.ext (by
    match d with
    | ⟨0, _⟩ => exact (whole_rhs_0 _ _).trans hk
    | ⟨1, _⟩ => exact whole_rhs_1 _ _)
  rw [el, er]

/-! ## The blocked product is the whole product -/

/-- Entry by entry: the whole product's sum over `k < 8192` regroups into the 8 blocks' shares, which is what the
    blocked product accumulates. -/
theorem Kmm_eq_dotGeneral (A : Vec Ideal Cert.KernelIdeal.S8192x8192 .f32) (B : Vec Ideal Cert.KernelIdeal.S8192x128 .f32) :
    Cert.KernelIdeal.Mm.Kmm (F := Ideal) A B
      = Host.dotGeneral (F := Ideal) (φ₁ := .f32) (φ₂ := .f32) Cert.ReferenceIdeal.dot_S8192x8192_S8192x128_S8192x128_1_0_0_1_n_n none A B := by
  funext i
  obtain ⟨r, c, rfl⟩ : ∃ (r : Fin 8192) (c : Fin 128), i = ix2 r c := ⟨i 0, i 1, eq_ix2 i⟩
  rw [Kmm_apply, whole_apply, sum_blocks]
  rfl

end Cert.KernelIdeal.Val

end
-- ==== Proof.Val.ResultIdeal.lean ====
/-
  At the ideal values the kernel program's result, with its two blocked matrix products read as `Kmm`, is the reference
  program's result. Each blocked product equals the whole contraction of its operands (`Kmm_eq_dotGeneral`); once both
  are rewritten, the two results are the same operations applied in the same order to the same arguments, so they are
  equal by unfolding the reference's stages.
-/
import proofs.«104640_j47047071760998_1_alg».proof.Proof.Mm.Result
import proofs.«104640_j47047071760998_1_alg».proof.Proof.Val.KmmIdeal
import proofs.«104640_j47047071760998_1_alg».proof.Proof.Gen.ReferenceIdeal.Read

noncomputable section

namespace Cert.KernelIdeal.Val

open Idealize.ShloMosaic

/-- The kernel program's result equals the reference program's last stage, as functions of the seven arguments. -/
theorem result_eq (x0 : Vec Ideal Cert.KernelIdeal.S8192x128 .f32) (x1 : Vec Ideal Cert.KernelIdeal.S3x8192 .f32)
    (x2 x3 : Vec Ideal Cert.KernelIdeal.S8192x8192 .f32) (x4 : Vec Ideal Cert.KernelIdeal.S128x128 .f32)
    (x5 : Vec Ideal Cert.KernelIdeal.S3x8192 .f32) (x6 : Vec Ideal Cert.KernelIdeal.S128 .f32) :
    Cert.KernelIdeal.Mm.result (F := Ideal) x0 x1 x2 x3 x4 x5 x6
      = Cert.ReferenceIdeal.Read.val_main_v11 (F := Ideal) x0 x1 x2 x3 x4 x5 x6 := by
  unfold Cert.KernelIdeal.Mm.result
  rw [Kmm_eq_dotGeneral, Kmm_eq_dotGeneral]
  rfl

end Cert.KernelIdeal.Val

end
-- ==== Proof.lean ====
/-
  The kernel computes `U (s * (Vt (x W))) + bias`, with the column scale `s = sum over the three levels of d * filt * d`,
  as two blocked matrix products: each 8192 x 8192 by 8192 x 128 product is taken in 1024-wide tiles, a row block's
  running sum kept in a scratch block over the eight column tiles and copied out at the last one; the small products,
  the scale and the bias are host operations, the same on both sides. The reference takes each product whole. Over the
  extended reals a change of float format is the identity and a blocked sum is the whole sum regrouped, which needs
  only that addition is commutative and associative: the two programs compute the same array, and finiteness of the
  inputs is not used.

  The three frames: both kernel programs run as five items (host stretch, region, host stretch, region, host stretch)
  and leave every argument array untouched (`Mm.frame`, the same text at the word-level and the ideal instance); the
  reference is a straight line of host operations. The ideal pass rewrote nothing, so `preserves` is `True`.
  The value claim: the kernel's run ends with the result buffer at `Mm.result` of the launch arrays (`Mm.run_named`,
  `Mm.U5_result`), the reference's at its composed term, and at the ideal instance the two terms are one function
  (`Val.result_eq`: each blocked product is the whole `dot_general`, `Val.Kmm_eq_dotGeneral`).
-/
import proofs.«104640_j47047071760998_1_alg».proof.Defs
import proofs.«104640_j47047071760998_1_alg».proof.Proof.Gen.Kernel
import proofs.«104640_j47047071760998_1_alg».proof.Proof.Gen.KernelIdeal
import proofs.«104640_j47047071760998_1_alg».proof.Proof.Gen.ReferenceIdeal
import proofs.«104640_j47047071760998_1_alg».proof.Proof.Gen.Pre_finite_inputs
import proofs.«104640_j47047071760998_1_alg».proof.Proof.Gen.ReferenceIdeal.Run
import proofs.«104640_j47047071760998_1_alg».proof.Proof.Gen.ReferenceIdeal.Read
import proofs.«104640_j47047071760998_1_alg».proof.Proof.MmK.Regs
import proofs.«104640_j47047071760998_1_alg».proof.Proof.Mm.Final
import proofs.«104640_j47047071760998_1_alg».proof.Proof.Val.ResultIdeal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Mm.frame m ρ
theorem frame_ki : Cert.frame_KernelIdeal := fun m ρ _ => Cert.KernelIdeal.Mm.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result buffer at one function of the arguments: the kernel's `result` term, which at the
    ideal instance is the reference's composed term of arguments that agree. -/
theorem algebraic : Cert.algebraic_KernelIdeal_ReferenceIdeal := by
  intro m ρ m' ρ' _ hagree
  refine ⟨fun c => Cert.KernelIdeal.Mm.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨(h c).1.trans (Cert.KernelIdeal.Mm.U5_result m c), (h c).2⟩)
      (Cert.KernelIdeal.Mm.run_named (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2]
    exact (Cert.ReferenceIdeal.Read.val_main_v11_eq _ _ _ _ _ _ _).trans (Cert.KernelIdeal.Val.result_eq _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
